-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v25)) (v1 : (c : Dev Cert.KernelIdeal.nD) → Buf (Elt Ideal) ((c.tc : Thread Cert.KernelIdeal.nD Cert.KernelIdeal.τ).loc Cert.KernelIdeal.main_v24_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_v24_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_v50) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S50000x256 : Shape := ⟨2, ![50000, 256]⟩
abbrev S800000 : Shape := ⟨1, ![800000]⟩
abbrev S256x256 : Shape := ⟨2, ![256, 256]⟩
abbrev S256 : Shape := ⟨1, ![256]⟩
abbrev S256x1 : Shape := ⟨2, ![256, 1]⟩
abbrev S1 : Shape := ⟨1, ![1]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S50000x256 : S_.BroadcastsInDim S50000x256 (![] : Fin 0 → Fin S50000x256.rank)
  reducesTo_S50000x256_S_d0_1 : S50000x256.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_
  bcast_S_S800000 : S_.BroadcastsInDim S800000 (![] : Fin 0 → Fin S800000.rank)
  reducesTo_S800000_S_d0 : S800000.ReducesTo [0] S_

variable [Facts]

def fn_part3 {F : FTy → Type} [FloatOps F] (main_v48 : IVec S_ 1) (main_v50 : IVec S800000 1) : IVec S_ 1 :=
  let main_c_19 : IVec S_ 1 := constantI S_ 1 1#1
  let main_v51 : IVec S_ 1 := (fun x v => Host.reduce IntOp.andi x v reducesTo_S800000_S_d0 h_S_) main_v50 main_c_19
  let main_v52 : IVec S_ 1 := andi main_v48 main_v51
  main_v52

def fn_part2 {F : FTy → Type} [FloatOps F] (main_arg3 : IVec S800000 32) (main_arg11 : FVec F S256x256 .f32) (main_arg12 : FVec F S256x1 .f32) (main_arg13 : FVec F S1 .f32) (main_v33 : IVec S_ 1) : IVec S_ 1 :=
  let main_v34 : FVec F S256x256 .f32 := Host.absf main_arg11
  let main_cst_12 : FVec F S_ .f32 := constant S_ .f32 0x7F800000#32
  let main_v35 : FVec F S256x256 .f32 := broadcastInDim S256x256 ![] bcast_S_S256x256 main_cst_12
  let main_v36 : IVec S256x256 1 := cmpf .olt main_v34 main_v35
  let main_c_13 : IVec S_ 1 := constantI S_ 1 1#1
  let main_v37 : IVec S_ 1 := (fun x v => Host.reduce IntOp.andi x v reducesTo_S256x256_S_d0_1 h_S_) main_v36 main_c_13
  let main_v38 : IVec S_ 1 := andi main_v33 main_v37
  let main_v39 : FVec F S256x1 .f32 := Host.absf main_arg12
  let main_cst_14 : FVec F S_ .f32 := constant S_ .f32 0x7F800000#32
  let main_v40 : FVec F S256x1 .f32 := broadcastInDim S256x1 ![] bcast_S_S256x1 main_cst_14
  let main_v41 : IVec S256x1 1 := cmpf .olt main_v39 main_v40
  let main_c_15 : IVec S_ 1 := constantI S_ 1 1#1
  let main_v42 : IVec S_ 1 := (fun x v => Host.reduce IntOp.andi x v reducesTo_S256x1_S_d0_1 h_S_) main_v41 main_c_15
  let main_v43 : IVec S_ 1 := andi main_v38 main_v42
  let main_v44 : FVec F S1 .f32 := Host.absf main_arg13
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  let main_c_18 : IVec S_ 32 := constantI S_ 32 0#32
  let main_v49 : IVec S800000 32 := broadcastInDim S800000 ![] bcast_S_S800000 main_c_18
  let main_v50 : IVec S800000 1 := cmpi .sge main_arg3 main_v49
  fn_part3 (F := F) main_v48 main_v50

def fn_part1 {F : FTy → Type} [FloatOps F] (main_arg3 : IVec S800000 32) (main_arg8 : FVec F S256x256 .f32) (main_arg9 : FVec F S256x256 .f32) (main_arg10 : FVec F S256 .f32) (main_arg11 : FVec F S256x256 .f32) (main_arg12 : FVec F S256x1 .f32) (main_arg13 : FVec F S1 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg8
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256x256 .f32 := Host.absf main_arg9
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg10
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg3 main_arg11 main_arg12 main_arg13 main_v33

def fn {F : FTy → Type} [FloatOps F] (main_arg0 : FVec F S100000x256 .f32) (main_arg1 : FVec F S50000x256 .f32) (main_arg2 : IVec S800000 32) (main_arg3 : IVec S800000 32) (main_arg4 : IVec S800000 32) (main_arg5 : IVec S800000 32) (main_arg6 : FVec F S256x256 .f32) (main_arg7 : FVec F S256 .f32) (main_arg8 : FVec F S256x256 .f32) (main_arg9 : FVec F S256x256 .f32) (main_arg10 : FVec F S256 .f32) (main_arg11 : FVec F S256x256 .f32) (main_arg12 : FVec F S256x1 .f32) (main_arg13 : FVec F S1 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S50000x256 .f32 := Host.absf main_arg1
  let main_cst_0 : FVec F S_ .f32 := constant S_ .f32 0x7F800000#32
  let main_v5 : FVec F S50000x256 .f32 := broadcastInDim S50000x256 ![] bcast_S_S50000x256 main_cst_0
  let main_v6 : IVec S50000x256 1 := cmpf .olt main_v4 main_v5
  let main_c_1 : IVec S_ 1 := constantI S_ 1 1#1
  let main_v7 : IVec S_ 1 := (fun x v => Host.reduce IntOp.andi x v reducesTo_S50000x256_S_d0_1 h_S_) main_v6 main_c_1
  let main_v8 : IVec S_ 1 := andi main_v3 main_v7
  let main_v9 : FVec F S256x256 .f32 := Host.absf main_arg6
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg7
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg3 main_arg8 main_arg9 main_arg10 main_arg11 main_arg12 main_arg13 main_v13 main_v16
-- ==== Kernel.lean ====
abbrev S100000x256 : Shape := ⟨2, ![100000, 256]⟩
abbrev S50000x256 : Shape := ⟨2, ![50000, 256]⟩
abbrev S800000 : Shape := ⟨1, ![800000]⟩
abbrev S256x256 : Shape := ⟨2, ![256, 256]⟩
abbrev S256 : Shape := ⟨1, ![256]⟩
abbrev S256x1 : Shape := ⟨2, ![256, 1]⟩
abbrev S1 : Shape := ⟨1, ![1]⟩
abbrev S_ : Shape := ⟨0, ![]⟩
abbrev S800000x1 : Shape := ⟨2, ![800000, 1]⟩
abbrev S800000x256 : Shape := ⟨2, ![800000, 256]⟩
abbrev S100000 : Shape := ⟨1, ![100000]⟩
abbrev S100000x1 : Shape := ⟨2, ![100000, 1]⟩
abbrev S1x256 : Shape := ⟨2, ![1, 256]⟩
abbrev S1x1 : Shape := ⟨2, ![1, 1]⟩
abbrev S5000x256 : Shape := ⟨2, ![5000, 256]⟩
abbrev S5000x1 : Shape := ⟨2, ![5000, 1]⟩

abbrev nBuf : Space → Nat
  | .hbm => 51
  | .vmem => 15
  | .smem => 0
  | _ => 0

abbrev bufTy : (tb : Table) → Fin (tcTables nBuf tb) → BufTy
  | .hbm, ⟨0, _⟩ => ⟨S100000x256, .f32⟩
  | .hbm, ⟨1, _⟩ => ⟨S50000x256, .f32⟩
  | .hbm, ⟨2, _⟩ => ⟨S800000, .i32⟩
  | .hbm, ⟨3, _⟩ => ⟨S800000, .i32⟩
  | .hbm, ⟨4, _⟩ => ⟨S800000, .i32⟩
  | .hbm, ⟨5, _⟩ => ⟨S800000, .i32⟩
  | .hbm, ⟨6, _⟩ => ⟨S256x256, .f32⟩
  | .hbm, ⟨7, _⟩ => ⟨S256, .f32⟩
  | .hbm, ⟨8, _⟩ => ⟨S256x256, .f32⟩
  | .hbm, ⟨9, _⟩ => ⟨S256x256, .f32⟩
  | .hbm, ⟨10, _⟩ => ⟨S256, .f32⟩
  | .hbm, ⟨11, _⟩ => ⟨S256x256, .f32⟩
  | .hbm, ⟨12, _⟩ => ⟨S256x1, .f32⟩
  | .hbm, ⟨13, _⟩ => ⟨S1, .f32⟩
  | .hbm, ⟨14, _⟩ => ⟨S_, .i32⟩
  | .hbm, ⟨15, _⟩ => ⟨S800000, .i32⟩
  | .hbm, ⟨16, _⟩ => ⟨S800000, .i1⟩
  | .hbm, ⟨17, _⟩ => ⟨S_, .i32⟩
  | .hbm, ⟨18, _⟩ => ⟨S800000, .i32⟩
  | .hbm, ⟨19, _⟩ => ⟨S800000, .i32⟩
  | .hbm, ⟨20, _⟩ => ⟨S800000, .i32⟩
  | .hbm, ⟨21, _⟩ => ⟨S800000x1, .i32⟩
  | .hbm, ⟨22, _⟩ => ⟨S800000x256, .f32⟩
  | .hbm, ⟨23, _⟩ => ⟨S_, .f32⟩
  | .hbm, ⟨24, _⟩ => ⟨S100000x256, .f32⟩
  | .hbm, ⟨25, _⟩ => ⟨S800000x1, .i32⟩
  | .hbm, ⟨26, _⟩ => ⟨S100000x256, .f32⟩
  | .hbm, ⟨27, _⟩ => ⟨S_, .i32⟩
  | .hbm, ⟨28, _⟩ => ⟨S100000, .i32⟩
  | .hbm, ⟨29, _⟩ => ⟨S_, .i32⟩
  | .hbm, ⟨30, _⟩ => ⟨S_, .i32⟩
  | .hbm, ⟨31, _⟩ => ⟨S800000, .i32⟩
  | .hbm, ⟨32, _⟩ => ⟨S800000, .i32⟩
  | .hbm, ⟨33, _⟩ => ⟨S_, .i32⟩
  | .hbm, ⟨34, _⟩ => ⟨S800000, .i32⟩
  | .hbm, ⟨35, _⟩ => ⟨S800000, .i1⟩
  | .hbm, ⟨36, _⟩ => ⟨S_, .i32⟩
  | .hbm, ⟨37, _⟩ => ⟨S800000, .i32⟩
  | .hbm, ⟨38, _⟩ => ⟨S800000, .i32⟩
  | .hbm, ⟨39, _⟩ => ⟨S800000, .i32⟩
  | .hbm, ⟨40, _⟩ => ⟨S800000x1, .i32⟩
  | .hbm, ⟨41, _⟩ => ⟨S_, .i32⟩
  | .hbm, ⟨42, _⟩ => ⟨S800000, .i32⟩
  | .hbm, ⟨43, _⟩ => ⟨S100000, .i32⟩
  | .hbm, ⟨44, _⟩ => ⟨S100000, .f32⟩
  | .hbm, ⟨45, _⟩ => ⟨S100000x1, .f32⟩
  | .hbm, ⟨46, _⟩ => ⟨S1x256, .f32⟩
  | .hbm, ⟨47, _⟩ => ⟨S1x1, .f32⟩
  | .hbm, ⟨48, _⟩ => ⟨S100000x256, .f32⟩
  | .hbm, ⟨49, _⟩ => ⟨S100000x1, .f32⟩
  | .hbm, ⟨50, _⟩ => ⟨S100000, .f32⟩
  | .local _ .vmem, ⟨0, _⟩ => ⟨S5000x256, .f32⟩
  | .local _ .vmem, ⟨1, _⟩ => ⟨S5000x256, .f32⟩
  | .local _ .vmem, ⟨2, _⟩ => ⟨S5000x1, .f32⟩
  | .local _ .vmem, ⟨3, _⟩ => ⟨S5000x1, .f32⟩
  | .local _ .vmem, ⟨4, _⟩ => ⟨S5000x256, .f32⟩
  | .local _ .vmem, ⟨5, _⟩ => ⟨S5000x256, .f32⟩
  | .local _ .vmem, ⟨6, _⟩ => ⟨S256x256, .f32⟩
  | .local _ .vmem, ⟨7, _⟩ => ⟨S1x256, .f32⟩
  | .local _ .vmem, ⟨8, _⟩ => ⟨S256x256, .f32⟩
  | .local _ .vmem, ⟨9, _⟩ => ⟨S256x1, .f32⟩
  | .local _ .vmem, ⟨10, _⟩ => ⟨S1x1, .f32⟩
  | .local _ .vmem, ⟨11, _⟩ => ⟨S5000x256, .f32⟩
  | .local _ .vmem, ⟨12, _⟩ => ⟨S5000x256, .f32⟩
  | .local _ .vmem, ⟨13, _⟩ => ⟨S5000x1, .f32⟩
  | .local _ .vmem, ⟨14, _⟩ => ⟨S5000x1, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_c : Ref sig .tc := ⟨.hbm, 14, rfl⟩
abbrev main_v0 : Ref sig .tc := ⟨.hbm, 15, rfl⟩
abbrev main_v1 : Ref sig .tc := ⟨.hbm, 16, rfl⟩
abbrev main_c_0 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_cst : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_c_1 : Ref sig .tc := ⟨.hbm, 27, rfl⟩
abbrev main_v10 : Ref sig .tc := ⟨.hbm, 28, rfl⟩
abbrev main_c_2 : Ref sig .tc := ⟨.hbm, 29, rfl⟩
abbrev main_call0_v0 : Ref sig .tc := ⟨.hbm, 30, rfl⟩
abbrev main_call0_v1 : Ref sig .tc := ⟨.hbm, 31, rfl⟩
abbrev main_v11 : Ref sig .tc := ⟨.hbm, 32, rfl⟩
abbrev main_c_3 : Ref sig .tc := ⟨.hbm, 33, rfl⟩
abbrev main_v12 : Ref sig .tc := ⟨.hbm, 34, rfl⟩
abbrev main_v13 : Ref sig .tc := ⟨.hbm, 35, rfl⟩
abbrev main_c_4 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_c_5 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24_0 : Ref sig .tc := ⟨.hbm, 48, rfl⟩
abbrev main_v24_1 : Ref sig .tc := ⟨.hbm, 49, rfl⟩
abbrev main_v25 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S5000x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S5000x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S100000x256 : S_.BroadcastsInDim S100000x256 (![] : Fin 0 → Fin S100000x256.rank)
  bcast_S_S100000 : S_.BroadcastsInDim S100000 (![] : Fin 0 → Fin S100000.rank)
  shapeCasts_S100000_S100000x1 : S100000.ShapeCasts S100000x1
  shapeCasts_S256_S1x256 : S256.ShapeCasts S1x256
  shapeCasts_S1_S1x1 : S1.ShapeCasts S1x1
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  inb_S5000x256_S5000x256_0_0 : ∀ a, (![0, 0] : Fin 2 → Nat) a + S5000x256.size a ≤ S5000x256.size a
  h_S5000x256 : 0 < S5000x256.numel
  shapeCasts_S5000x256_S5000x256 : S5000x256.ShapeCasts S5000x256
  broadcasts_S5000x1_S5000x256 : S5000x1.Broadcasts S5000x256
  inb_S256x256_S256x256_0_0 : ∀ a, (![0, 0] : Fin 2 → Nat) a + S256x256.size a ≤ S256x256.size a
  h_S256x256 : 0 < S256x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S5000x256 : S1x256.Broadcasts S5000x256
  inb_S256x1_S256x1_0_0 : ∀ a, (![0, 0] : Fin 2 → Nat) a + S256x1.size a ≤ S256x1.size a
  h_S256x1 : 0 < S256x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  shapeCasts_S100000x1_S100000 : S100000x1.ShapeCasts S100000
  gather_S50000x256_S800000x1_S800000x256_1_0_n_n_0_1_1256_wf : GatherDims.WF S50000x256 S800000x1 S800000x256 [1] [0] [] [0] [] 1 ![1, 256]
  scatter_S100000x256_S800000x1_S800000x256_1_0_0_1_wf : ScatterDims.WF S100000x256 S800000x1 S800000x256 [1] [0] [0] 1
  scatter_S100000_S800000x1_S800000_n_0_0_1_wf : ScatterDims.WF S100000 S800000x1 S800000 [] [0] [0] 1
  dot_S5000x256_S256x256_S5000x256_1_0_0_1_n_n_wf : DotDims.WF S5000x256 S256x256 S5000x256 [1] [0] [0] [1] [] []
  dot_S5000x256_S256x1_S5000x1_1_0_0_1_n_n_wf : DotDims.WF S5000x256 S256x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S100000x1.size a
  hwx0_1 : ∀ i : grid0.Coords, EltTy.bits .f32 = 32 ∨ (Rect.block (s := S100000x1) S5000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x256.size a ≤ S100000x256.size a
  hwx0_2 : ∀ i : grid0.Coords, EltTy.bits .f32 = 32 ∨ (Rect.block (s := S100000x256) S5000x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x256.size a ≤ S256x256.size a
  hwx0_5 : ∀ i : grid0.Coords, EltTy.bits .f32 = 32 ∨ (Rect.block (s := S256x256) S256x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x1.size a ≤ S256x1.size a
  hwx0_6 : ∀ i : grid0.Coords, EltTy.bits .f32 = 32 ∨ (Rect.block (s := S256x1) S256x1.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1.size a ≤ S1x1.size a
  hwx0_7 : ∀ i : grid0.Coords, EltTy.bits .f32 = 32 ∨ (Rect.block (s := S1x1) S1x1.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S5000x256.size a ≤ S100000x256.size a
  hwx0_8 : ∀ i : grid0.Coords, EltTy.bits .f32 = 32 ∨ (Rect.block (s := S100000x256) S5000x256.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S5000x1.size a ≤ S100000x1.size a
  hwx0_9 : ∀ i : grid0.Coords, EltTy.bits .f32 = 32 ∨ (Rect.block (s := S100000x1) S5000x1.size (cc0_transform_9 i) (hinb0_9 i)).WholeWords (EltTy.packing .f32)

variable [Facts₀]

def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S100000x256_S800000x1_S800000x256_1_0_0_1 : ScatterDims S100000x256 S800000x1 S800000x256 where
  updateWindowDims := [1]
  insertedWindowDims := [0]
  scatterDimsToOperandDims := [0]
  indexVectorDim := 1
  wf := scatter_S100000x256_S800000x1_S800000x256_1_0_0_1_wf
def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf
def dot_S5000x256_S256x256_S5000x256_1_0_0_1_n_n : DotDims S5000x256 S256x256 S5000x256 where
  lhsContracting := [1]
  rhsContracting := [0]
  lhsNonContracting := [0]
  rhsNonContracting := [1]
  lhsBatch := []
  rhsBatch := []
  wf := dot_S5000x256_S256x256_S5000x256_1_0_0_1_n_n_wf
def dot_S5000x256_S256x1_S5000x1_1_0_0_1_n_n : DotDims S5000x256 S256x1 S5000x1 where
  lhsContracting := [1]
  rhsContracting := [0]
  lhsNonContracting := [0]
  rhsNonContracting := [1]
  lhsBatch := []
  rhsBatch := []
  wf := dot_S5000x256_S256x1_S5000x1_1_0_0_1_n_n_wf

abbrev win0_0 : Pipeline.Window sig grid0 :=
  Pipeline.Window.ofSpec (Memref.whole main_v9) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v21) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S5000x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v22) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg8) S256x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg12) S256x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v23) S1x1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v24_0) S5000x256.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v24_1) S5000x1.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S100000x256 : Shape := ⟨2, ![100000, 256]⟩
abbrev S50000x256 : Shape := ⟨2, ![50000, 256]⟩
abbrev S800000 : Shape := ⟨1, ![800000]⟩
abbrev S256x256 : Shape := ⟨2, ![256, 256]⟩
abbrev S256 : Shape := ⟨1, ![256]⟩
abbrev S256x1 : Shape := ⟨2, ![256, 1]⟩
abbrev S1 : Shape := ⟨1, ![1]⟩
abbrev S_ : Shape := ⟨0, ![]⟩
abbrev S800000x1 : Shape := ⟨2, ![800000, 1]⟩
abbrev S800000x256 : Shape := ⟨2, ![800000, 256]⟩
abbrev S100000 : Shape := ⟨1, ![100000]⟩
abbrev S100000x1 : Shape := ⟨2, ![100000, 1]⟩
abbrev S1x256 : Shape := ⟨2, ![1, 256]⟩
abbrev S50000 : Shape := ⟨1, ![50000]⟩
abbrev S50000x1 : Shape := ⟨2, ![50000, 1]⟩
abbrev S1x1 : Shape := ⟨2, ![1, 1]⟩

abbrev nBuf : Space → Nat
  | .hbm => 87
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S50000x256, .f32⟩
  | .hbm, ⟨2, _⟩ => ⟨S800000, .i32⟩
  | .hbm, ⟨3, _⟩ => ⟨S800000, .i32⟩
  | .hbm, ⟨4, _⟩ => ⟨S800000, .i32⟩
  | .hbm, ⟨5, _⟩ => ⟨S800000, .i32⟩
  | .hbm, ⟨6, _⟩ => ⟨S256x256, .f32⟩
  | .hbm, ⟨7, _⟩ => ⟨S256, .f32⟩
  | .hbm, ⟨8, _⟩ => ⟨S256x256, .f32⟩
  | .hbm, ⟨9, _⟩ => ⟨S256x256, .f32⟩
  | .hbm, ⟨10, _⟩ => ⟨S256, .f32⟩
  | .hbm, ⟨11, _⟩ => ⟨S256x256, .f32⟩
  | .hbm, ⟨12, _⟩ => ⟨S256x1, .f32⟩
  | .hbm, ⟨13, _⟩ => ⟨S1, .f32⟩
  | .hbm, ⟨14, _⟩ => ⟨S_, .i32⟩
  | .hbm, ⟨15, _⟩ => ⟨S800000, .i32⟩
  | .hbm, ⟨16, _⟩ => ⟨S800000, .i1⟩
  | .hbm, ⟨17, _⟩ => ⟨S_, .i32⟩
  | .hbm, ⟨18, _⟩ => ⟨S800000, .i32⟩
  | .hbm, ⟨19, _⟩ => ⟨S800000, .i32⟩
  | .hbm, ⟨20, _⟩ => ⟨S800000, .i32⟩
  | .hbm, ⟨21, _⟩ => ⟨S800000x1, .i32⟩
  | .hbm, ⟨22, _⟩ => ⟨S800000x256, .f32⟩
  | .hbm, ⟨23, _⟩ => ⟨S_, .f32⟩
  | .hbm, ⟨24, _⟩ => ⟨S100000x256, .f32⟩
  | .hbm, ⟨25, _⟩ => ⟨S800000x1, .i32⟩
  | .hbm, ⟨26, _⟩ => ⟨S100000x256, .f32⟩
  | .hbm, ⟨27, _⟩ => ⟨S_, .f32⟩
  | .hbm, ⟨28, _⟩ => ⟨S800000, .f32⟩
  | .hbm, ⟨29, _⟩ => ⟨S_, .f32⟩
  | .hbm, ⟨30, _⟩ => ⟨S100000, .f32⟩
  | .hbm, ⟨31, _⟩ => ⟨S800000x1, .i32⟩
  | .hbm, ⟨32, _⟩ => ⟨S100000, .f32⟩
  | .hbm, ⟨33, _⟩ => ⟨S_, .f32⟩
  | .hbm, ⟨34, _⟩ => ⟨S100000, .f32⟩
  | .hbm, ⟨35, _⟩ => ⟨S100000, .f32⟩
  | .hbm, ⟨36, _⟩ => ⟨S100000x1, .f32⟩
  | .hbm, ⟨37, _⟩ => ⟨S100000x256, .f32⟩
  | .hbm, ⟨38, _⟩ => ⟨S100000x256, .f32⟩
  | .hbm, ⟨39, _⟩ => ⟨S100000x256, .f32⟩
  | .hbm, ⟨40, _⟩ => ⟨S1x256, .f32⟩
  | .hbm, ⟨41, _⟩ => ⟨S100000x256, .f32⟩
  | .hbm, ⟨42, _⟩ => ⟨S100000x256, .f32⟩
  | .hbm, ⟨43, _⟩ => ⟨S100000x256, .f32⟩
  | .hbm, ⟨44, _⟩ => ⟨S100000x256, .f32⟩
  | .hbm, ⟨45, _⟩ => ⟨S_, .i32⟩
  | .hbm, ⟨46, _⟩ => ⟨S800000, .i32⟩
  | .hbm, ⟨47, _⟩ => ⟨S800000, .i1⟩
  | .hbm, ⟨48, _⟩ => ⟨S_, .i32⟩
  | .hbm, ⟨49, _⟩ => ⟨S800000, .i32⟩
  | .hbm, ⟨50, _⟩ => ⟨S800000, .i32⟩
  | .hbm, ⟨51, _⟩ => ⟨S800000, .i32⟩
  | .hbm, ⟨52, _⟩ => ⟨S800000x1, .i32⟩
  | .hbm, ⟨53, _⟩ => ⟨S800000x256, .f32⟩
  | .hbm, ⟨54, _⟩ => ⟨S_, .f32⟩
  | .hbm, ⟨55, _⟩ => ⟨S50000x256, .f32⟩
  | .hbm, ⟨56, _⟩ => ⟨S800000x1, .i32⟩
  | .hbm, ⟨57, _⟩ => ⟨S50000x256, .f32⟩
  | .hbm, ⟨58, _⟩ => ⟨S_, .f32⟩
  | .hbm, ⟨59, _⟩ => ⟨S800000, .f32⟩
  | .hbm, ⟨60, _⟩ => ⟨S_, .f32⟩
  | .hbm, ⟨61, _⟩ => ⟨S50000, .f32⟩
  | .hbm, ⟨62, _⟩ => ⟨S800000x1, .i32⟩
  | .hbm, ⟨63, _⟩ => ⟨S50000, .f32⟩
  | .hbm, ⟨64, _⟩ => ⟨S_, .f32⟩
  | .hbm, ⟨65, _⟩ => ⟨S50000, .f32⟩
  | .hbm, ⟨66, _⟩ => ⟨S50000, .f32⟩
  | .hbm, ⟨67, _⟩ => ⟨S50000x1, .f32⟩
  | .hbm, ⟨68, _⟩ => ⟨S50000x256, .f32⟩
  | .hbm, ⟨69, _⟩ => ⟨S50000x256, .f32⟩
  | .hbm, ⟨70, _⟩ => ⟨S50000x256, .f32⟩
  | .hbm, ⟨71, _⟩ => ⟨S1x256, .f32⟩
  | .hbm, ⟨72, _⟩ => ⟨S50000x256, .f32⟩
  | .hbm, ⟨73, _⟩ => ⟨S50000x256, .f32⟩
  | .hbm, ⟨74, _⟩ => ⟨S50000x256, .f32⟩
  | .hbm, ⟨75, _⟩ => ⟨S50000x256, .f32⟩
  | .hbm, ⟨76, _⟩ => ⟨S_, .f32⟩
  | .hbm, ⟨77, _⟩ => ⟨S100000x256, .f32⟩
  | .hbm, ⟨78, _⟩ => ⟨S100000x256, .f32⟩
  | .hbm, ⟨79, _⟩ => ⟨S_, .f32⟩
  | .hbm, ⟨80, _⟩ => ⟨S50000x256, .f32⟩
  | .hbm, ⟨81, _⟩ => ⟨S50000x256, .f32⟩
  | .hbm, ⟨82, _⟩ => ⟨S100000x1, .f32⟩
  | .hbm, ⟨83, _⟩ => ⟨S1x1, .f32⟩
  | .hbm, ⟨84, _⟩ => ⟨S100000x1, .f32⟩
  | .hbm, ⟨85, _⟩ => ⟨S100000x1, .f32⟩
  | .hbm, ⟨86, _⟩ => ⟨S100000, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_c : Ref sig .tc := ⟨.hbm, 14, rfl⟩
abbrev main_v0 : Ref sig .tc := ⟨.hbm, 15, rfl⟩
abbrev main_v1 : Ref sig .tc := ⟨.hbm, 16, rfl⟩
abbrev main_c_0 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_cst : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_cst_1 : Ref sig .tc := ⟨.hbm, 27, rfl⟩
abbrev main_v10 : Ref sig .tc := ⟨.hbm, 28, rfl⟩
abbrev main_cst_2 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_cst_3 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_c_4 : Ref sig .tc := ⟨.hbm, 45, rfl⟩
abbrev main_v25 : Ref sig .tc := ⟨.hbm, 46, rfl⟩
abbrev main_v26 : Ref sig .tc := ⟨.hbm, 47, rfl⟩
abbrev main_c_5 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_cst_6 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_cst_7 : Ref sig .tc := ⟨.hbm, 58, rfl⟩
abbrev main_v35 : Ref sig .tc := ⟨.hbm, 59, rfl⟩
abbrev main_cst_8 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_cst_9 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_call0_cst : Ref sig .tc := ⟨.hbm, 76, rfl⟩
abbrev main_call0_v0 : Ref sig .tc := ⟨.hbm, 77, rfl⟩
abbrev main_v50 : Ref sig .tc := ⟨.hbm, 78, rfl⟩
abbrev main_call1_cst : Ref sig .tc := ⟨.hbm, 79, rfl⟩
abbrev main_call1_v0 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S100000x256 : S_.BroadcastsInDim S100000x256 (![] : Fin 0 → Fin S100000x256.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x256_0_1 : S100000x1.BroadcastsInDim S100000x256 (![0, 1] : Fin 2 → Fin S100000x256.rank)
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  bcast_S_S50000x256 : S_.BroadcastsInDim S50000x256 (![] : Fin 0 → Fin S50000x256.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x256_0_1 : S50000x1.BroadcastsInDim S50000x256 (![0, 1] : Fin 2 → Fin S50000x256.rank)
  bcast_S1x256_S50000x256_0_1 : S1x256.BroadcastsInDim S50000x256 (![0, 1] : Fin 2 → Fin S50000x256.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  shapeCasts_S100000x1_S100000 : S100000x1.ShapeCasts S100000
  gather_S50000x256_S800000x1_S800000x256_1_0_n_n_0_1_1256_wf : GatherDims.WF S50000x256 S800000x1 S800000x256 [1] [0] [] [0] [] 1 ![1, 256]
  scatter_S100000x256_S800000x1_S800000x256_1_0_0_1_wf : ScatterDims.WF S100000x256 S800000x1 S800000x256 [1] [0] [0] 1
  scatter_S100000_S800000x1_S800000_n_0_0_1_wf : ScatterDims.WF S100000 S800000x1 S800000 [] [0] [0] 1
  dot_S100000x256_S256x256_S100000x256_1_0_0_1_n_n_wf : DotDims.WF S100000x256 S256x256 S100000x256 [1] [0] [0] [1] [] []
  gather_S100000x256_S800000x1_S800000x256_1_0_n_n_0_1_1256_wf : GatherDims.WF S100000x256 S800000x1 S800000x256 [1] [0] [] [0] [] 1 ![1, 256]
  scatter_S50000x256_S800000x1_S800000x256_1_0_0_1_wf : ScatterDims.WF S50000x256 S800000x1 S800000x256 [1] [0] [0] 1
  scatter_S50000_S800000x1_S800000_n_0_0_1_wf : ScatterDims.WF S50000 S800000x1 S800000 [] [0] [0] 1
  dot_S50000x256_S256x256_S50000x256_1_0_0_1_n_n_wf : DotDims.WF S50000x256 S256x256 S50000x256 [1] [0] [0] [1] [] []
  dot_S100000x256_S256x1_S100000x1_1_0_0_1_n_n_wf : DotDims.WF S100000x256 S256x1 S100000x1 [1] [0] [0] [1] [] []

variable [Facts₀]

def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S100000x256_S800000x1_S800000x256_1_0_0_1 : ScatterDims S100000x256 S800000x1 S800000x256 where
  updateWindowDims := [1]
  insertedWindowDims := [0]
  scatterDimsToOperandDims := [0]
  indexVectorDim := 1
  wf := scatter_S100000x256_S800000x1_S800000x256_1_0_0_1_wf
def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf
def dot_S100000x256_S256x256_S100000x256_1_0_0_1_n_n : DotDims S100000x256 S256x256 S100000x256 where
  lhsContracting := [1]
  rhsContracting := [0]
  lhsNonContracting := [0]
  rhsNonContracting := [1]
  lhsBatch := []
  rhsBatch := []
  wf := dot_S100000x256_S256x256_S100000x256_1_0_0_1_n_n_wf
def gather_S100000x256_S800000x1_S800000x256_1_0_n_n_0_1_1256 : GatherDims S100000x256 S800000x1 S800000x256 where
  offsetDims := [1]
  collapsedSliceDims := [0]
  operandBatchingDims := []
  startIndicesBatchingDims := []
  startIndexMap := [0]
  indexVectorDim := 1
  sliceSizes := ![1, 256]
  wf := gather_S100000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def dot_S100000x256_S256x1_S100000x1_1_0_0_1_n_n : DotDims S100000x256 S256x1 S100000x1 where
  lhsContracting := [1]
  rhsContracting := [0]
  lhsNonContracting := [0]
  rhsNonContracting := [1]
  lhsBatch := []
  rhsBatch := []
  wf := dot_S100000x256_S256x1_S100000x1_1_0_0_1_n_n_wf

class Facts : Prop extends Facts₀ where

variable [Facts]
-- ==== Proof.KBody.lean ====
/-
  What the kernel body stores, entry by entry. With the row block of the segment sums `s`, of the counts `c` and of the
  transaction features `x`, and the whole weight arrays, the block of the hidden layer at (p, q) is
    max ( Σₖ (s p k / max (c p 0) 1) · W_l k q + b_l 0 q + Σₖ x p k · W_r k q ) 0
  and the block of scores at (p, 0) is  Σₖ hidden p k · W_out k 0 + b_out 0 0.
  A matrix product into a zero accumulator is the plain sum over the contracted axis; a broadcast along a unit axis
  reads the unit coordinate; a shape cast to the same shape is the identity.
-/
import proofs.«422967_j64759516889783_2_alg».proof.Proof.Gen.KernelIdeal.Skeleton
import Idealize.ShloMosaic.Lib.Pipeline.Value
import Idealize.ShloMosaic.Lib.ValueIdx
import Idealize.ShloMosaic.PureOps.Ideal.Laws

noncomputable section

namespace Cert.Sage.K

open Cert.KernelIdeal Cert.KernelIdeal.Gen
open Idealize.ShloMosaic Idealize.ShloMosaic.ValueIdx

/-! ### The two matrix products at an index -/

theorem lhsA_0 (i : S5000x256.Idx) (z : dot_S5000x256_S256x256_S5000x256_1_0_0_1_n_n.contr.Idx) : (dot_S5000x256_S256x256_S5000x256_1_0_0_1_n_n.lhsIdx i z 0).val = (i 0).val := by
  unfold DotDims.lhsIdx
  rw [dif_neg (show ¬(0 : Fin S5000x256.rank) ∈ dot_S5000x256_S256x256_S5000x256_1_0_0_1_n_n.lhsBatch by decide), dif_pos (show (0 : Fin S5000x256.rank) ∈ dot_S5000x256_S256x256_S5000x256_1_0_0_1_n_n.lhsNonContracting by decide)]
  rfl
theorem lhsA_1 (i : S5000x256.Idx) (z : dot_S5000x256_S256x256_S5000x256_1_0_0_1_n_n.contr.Idx) : (dot_S5000x256_S256x256_S5000x256_1_0_0_1_n_n.lhsIdx i z 1).val = (z ⟨0, by decide⟩).val :=
  dot_S5000x256_S256x256_S5000x256_1_0_0_1_n_n.lhsIdx_val_of_single rfl i z
theorem rhsA_0 (i : S5000x256.Idx) (z : dot_S5000x256_S256x256_S5000x256_1_0_0_1_n_n.contr.Idx) : (dot_S5000x256_S256x256_S5000x256_1_0_0_1_n_n.rhsIdx i z 0).val = (z ⟨0, by decide⟩).val :=
  dot_S5000x256_S256x256_S5000x256_1_0_0_1_n_n.rhsIdx_val_of_single rfl i z
theorem rhsA_1 (i : S5000x256.Idx) (z : dot_S5000x256_S256x256_S5000x256_1_0_0_1_n_n.contr.Idx) : (dot_S5000x256_S256x256_S5000x256_1_0_0_1_n_n.rhsIdx i z 1).val = (i 1).val := by
  unfold DotDims.rhsIdx
  rw [dif_neg (show ¬(1 : Fin S256x256.rank) ∈ dot_S5000x256_S256x256_S5000x256_1_0_0_1_n_n.rhsBatch by decide), dif_pos (show (1 : Fin S256x256.rank) ∈ dot_S5000x256_S256x256_S5000x256_1_0_0_1_n_n.rhsNonContracting by decide)]
  rfl

/-- A [5000, 256] × [256, 256] product into zero, at (p, q): the sum over k of left (p, k) times right (k, q). -/
theorem mmA_apply (a : FVec Ideal S5000x256 .f32) (b : FVec Ideal S256x256 .f32) (p : Fin 5000) (q : Fin 256) :
    FloatOps.matmul dot_S5000x256_S256x256_S5000x256_1_0_0_1_n_n (some .fp32) a b (constant S5000x256 .f32 0x00000000#32) (ix2 p q)
      = ∑ k : Fin 256, a (ix2 p k) * b (ix2 k q) := by
  rw [Ideal.matmul_constant_zero_apply, ← Equiv.sum_comp (contrEquiv1 dot_S5000x256_S256x256_S5000x256_1_0_0_1_n_n 256 rfl rfl).symm]
  refine Finset.sum_congr rfl fun k _ => ?_
  have hk := contrEquiv1_symm_val dot_S5000x256_S256x256_S5000x256_1_0_0_1_n_n 256 rfl rfl k
  have el : dot_S5000x256_S256x256_S5000x256_1_0_0_1_n_n.lhsIdx (ix2 p q) ((contrEquiv1 dot_S5000x256_S256x256_S5000x256_1_0_0_1_n_n 256 rfl rfl).symm k) = ix2 p k := funext fun a => Fin.ext (by
    match a with
    | ⟨0, _⟩ => exact lhsA_0 _ _
    | ⟨1, _⟩ => exact (lhsA_1 _ _).trans hk)
  have er : dot_S5000x256_S256x256_S5000x256_1_0_0_1_n_n.rhsIdx (ix2 p q) ((contrEquiv1 dot_S5000x256_S256x256_S5000x256_1_0_0_1_n_n 256 rfl rfl).symm k) = ix2 k q := funext fun a => Fin.ext (by
    match a with
    | ⟨0, _⟩ => exact (rhsA_0 _ _).trans hk
    | ⟨1, _⟩ => exact rhsA_1 _ _)
  rw [el, er]

theorem lhsB_0 (i : S5000x1.Idx) (z : dot_S5000x256_S256x1_S5000x1_1_0_0_1_n_n.contr.Idx) : (dot_S5000x256_S256x1_S5000x1_1_0_0_1_n_n.lhsIdx i z 0).val = (i 0).val := by
  unfold DotDims.lhsIdx
  rw [dif_neg (show ¬(0 : Fin S5000x256.rank) ∈ dot_S5000x256_S256x1_S5000x1_1_0_0_1_n_n.lhsBatch by decide), dif_pos (show (0 : Fin S5000x256.rank) ∈ dot_S5000x256_S256x1_S5000x1_1_0_0_1_n_n.lhsNonContracting by decide)]
  rfl
theorem lhsB_1 (i : S5000x1.Idx) (z : dot_S5000x256_S256x1_S5000x1_1_0_0_1_n_n.contr.Idx) : (dot_S5000x256_S256x1_S5000x1_1_0_0_1_n_n.lhsIdx i z 1).val = (z ⟨0, by decide⟩).val :=
  dot_S5000x256_S256x1_S5000x1_1_0_0_1_n_n.lhsIdx_val_of_single rfl i z
theorem rhsB_0 (i : S5000x1.Idx) (z : dot_S5000x256_S256x1_S5000x1_1_0_0_1_n_n.contr.Idx) : (dot_S5000x256_S256x1_S5000x1_1_0_0_1_n_n.rhsIdx i z 0).val = (z ⟨0, by decide⟩).val :=
  dot_S5000x256_S256x1_S5000x1_1_0_0_1_n_n.rhsIdx_val_of_single rfl i z
theorem rhsB_1 (i : S5000x1.Idx) (z : dot_S5000x256_S256x1_S5000x1_1_0_0_1_n_n.contr.Idx) : (dot_S5000x256_S256x1_S5000x1_1_0_0_1_n_n.rhsIdx i z 1).val = (i 1).val := by
  unfold DotDims.rhsIdx
  rw [dif_neg (show ¬(1 : Fin S256x1.rank) ∈ dot_S5000x256_S256x1_S5000x1_1_0_0_1_n_n.rhsBatch by decide), dif_pos (show (1 : Fin S256x1.rank) ∈ dot_S5000x256_S256x1_S5000x1_1_0_0_1_n_n.rhsNonContracting by decide)]
  rfl

/-- A [5000, 256] × [256, 1] product into zero, at (p, 0): the sum over k of left (p, k) times right (k, 0). -/
theorem mmB_apply (a : FVec Ideal S5000x256 .f32) (b : FVec Ideal S256x1 .f32) (p : Fin 5000) :
    FloatOps.matmul dot_S5000x256_S256x1_S5000x1_1_0_0_1_n_n (some .fp32) a b (constant S5000x1 .f32 0x00000000#32) (ix2 p 0)
      = ∑ k : Fin 256, a (ix2 p k) * b (ix2 k 0) := by
  rw [Ideal.matmul_constant_zero_apply, ← Equiv.sum_comp (contrEquiv1 dot_S5000x256_S256x1_S5000x1_1_0_0_1_n_n 256 rfl rfl).symm]
  refine Finset.sum_congr rfl fun k _ => ?_
  have hk := contrEquiv1_symm_val dot_S5000x256_S256x1_S5000x1_1_0_0_1_n_n 256 rfl rfl k
  have el : dot_S5000x256_S256x1_S5000x1_1_0_0_1_n_n.lhsIdx (ix2 p 0) ((contrEquiv1 dot_S5000x256_S256x1_S5000x1_1_0_0_1_n_n 256 rfl rfl).symm k) = ix2 p k := funext fun a => Fin.ext (by
    match a with
    | ⟨0, _⟩ => exact lhsB_0 _ _
    | ⟨1, _⟩ => exact (lhsB_1 _ _).trans hk)
  have er : dot_S5000x256_S256x1_S5000x1_1_0_0_1_n_n.rhsIdx (ix2 p 0) ((contrEquiv1 dot_S5000x256_S256x1_S5000x1_1_0_0_1_n_n 256 rfl rfl).symm k) = ix2 k 0 := funext fun a => Fin.ext (by
    match a with
    | ⟨0, _⟩ => exact (rhsB_0 _ _).trans hk
    | ⟨1, _⟩ => exact rhsB_1 _ _)
  rw [el, er]

/-! ### The broadcasts along a unit axis -/

/-- A column [5000, 1] spread over 256 columns reads its row's one entry. -/
theorem spreadCol_apply {α : Type} (x : S5000x1.Idx → α) (p : Fin 5000) (q : Fin 256) :
    broadcastTo S5000x256 x broadcasts_S5000x1_S5000x256 (ix2 p q) = x (ix2 p 0) :=
  broadcastTo_apply x broadcasts_S5000x1_S5000x256 (ix2 p q) (ix2 p 0) (fun a => match a with
    | ⟨0, _⟩ => by show p.val = if (5000 : Nat) = 1 then 0 else p.val; rw [if_neg (by decide)]
    | ⟨1, _⟩ => by show 0 = if (1 : Nat) = 1 then 0 else q.val; rw [if_pos rfl])

/-- A row [1, 256] spread over 5000 rows reads its column's one entry. -/
theorem spreadRow_apply {α : Type} (x : S1x256.Idx → α) (p : Fin 5000) (q : Fin 256) :
    broadcastTo S5000x256 x broadcasts_S1x256_S5000x256 (ix2 p q) = x (ix2 0 q) :=
  broadcastTo_apply x broadcasts_S1x256_S5000x256 (ix2 p q) (ix2 0 q) (fun a => match a with
    | ⟨0, _⟩ => by show 0 = if (1 : Nat) = 1 then 0 else p.val; rw [if_pos rfl]
    | ⟨1, _⟩ => by show q.val = if (256 : Nat) = 1 then 0 else q.val; rw [if_neg (by decide)])

/-- The one entry [1, 1] spread over 5000 rows. -/
theorem spreadOne_apply {α : Type} (x : S1x1.Idx → α) (p : Fin 5000) :
    broadcastTo S5000x1 x broadcasts_S1x1_S5000x1 (ix2 p 0) = x (ix2 0 0) :=
  broadcastTo_apply x broadcasts_S1x1_S5000x1 (ix2 p 0) (ix2 0 0) (fun a => match a with
    | ⟨0, _⟩ => by show 0 = if (1 : Nat) = 1 then 0 else p.val; rw [if_pos rfl]
    | ⟨1, _⟩ => by show 0 = if (1 : Nat) = 1 then 0 else (0 : Fin 1).val; rw [if_pos rfl])

/-! ### The two payloads -/

/-- The hidden block's entry (p, q). -/
theorem pay1_apply (v0 : Vec Ideal S5000x1 .f32) (v4 : Vec Ideal S5000x256 .f32) (v8 : Vec Ideal S256x256 .f32) (v10 : Vec Ideal S1x256 .f32)
    (v14 : Vec Ideal S5000x256 .f32) (v15 : Vec Ideal S256x256 .f32) (p : Fin 5000) (q : Fin 256) :
    k0_pay1 (F := Ideal) v0 v4 v8 v10 v14 v15 (ix2 p q)
      = max (((∑ k : Fin 256, Ideal.div (v4 (ix2 p k)) (max (v0 (ix2 p 0)) (Ideal.ofBits .f32 0x3F800000#32)) * v8 (ix2 k q)) + v10 (ix2 0 q))
          + ∑ k : Fin 256, v14 (ix2 p k) * v15 (ix2 k q)) (Ideal.ofBits .f32 0x00000000#32) := by
  unfold k0_pay1
  simp only [shapeCast_self, maximumf_apply, addf_apply, divf_apply, broadcast_apply, mmA_apply, spreadRow_apply, spreadCol_apply]
  rfl

/-- The score block's entry (p, 0). -/
theorem pay2_apply (v0 : Vec Ideal S5000x1 .f32) (v4 : Vec Ideal S5000x256 .f32) (v8 : Vec Ideal S256x256 .f32) (v10 : Vec Ideal S1x256 .f32)
    (v14 : Vec Ideal S5000x256 .f32) (v15 : Vec Ideal S256x256 .f32) (v21 : Vec Ideal S256x1 .f32) (v23 : Vec Ideal S1x1 .f32) (p : Fin 5000) :
    k0_pay2 (F := Ideal) v0 v4 v8 v10 v14 v15 v21 v23 (ix2 p 0)
      = (∑ k : Fin 256, k0_pay1 (F := Ideal) v0 v4 v8 v10 v14 v15 (ix2 p k) * v21 (ix2 k 0)) + v23 (ix2 0 0) := by
  unfold k0_pay2
  simp only [shapeCast_self, addf_apply, mmB_apply, spreadOne_apply]

end Cert.Sage.K

end
-- ==== Proof.Spec.lean ====
/-
  The two results as plain formulas on the extended reals.

  A transaction row `r` gathers the feature rows of the accounts that point at it: `S r k` is the sum of those rows'
  feature `k` and `C r` the number of them. The mean is `S r k / max (C r) 1` (a row nobody points at keeps a zero
  sum, divided by one). The hidden layer is the mean times `Wl`, plus the bias `bl`, plus the row's own features
  times `Wr`, cut below at zero; the score of the row is the hidden row times the column `Wo`, plus `bo`.
  Both programs compute exactly these two formulas; they differ only in how `C` is obtained.
-/
import Idealize.ShloMosaic.PureOps
import Idealize.ShloMosaic.PureOps.Ideal.Laws
import Idealize.ShloMosaic.Lib.ValueIdx

noncomputable section

namespace Cert.Sage

open Idealize.ShloMosaic Idealize.ShloMosaic.ValueIdx

/-- A rank-two array of extended reals. -/
abbrev Mat (a b : Nat) : Type := (⟨2, ![a, b]⟩ : Shape).Idx → EReal

/-- The hidden layer at row `r`, column `q`: `max (Σₖ (S r k / max (C r) 1) · Wl k q + bl q + Σₖ X r k · Wr k q) 0`, the
    two float literals kept as their words. -/
def hidden (S : Mat 100000 256) (C : Fin 100000 → EReal) (X : Mat 100000 256) (Wl : Mat 256 256) (bl : Fin 256 → EReal)
    (Wr : Mat 256 256) (r : Fin 100000) (q : Fin 256) : EReal :=
  max (((∑ k : Fin 256, Ideal.div (S (ix2 r k)) (max (C r) (Ideal.ofBits .f32 0x3F800000#32)) * Wl (ix2 k q)) + bl q)
        + ∑ k : Fin 256, X (ix2 r k) * Wr (ix2 k q)) (Ideal.ofBits .f32 0x00000000#32)

/-- The score of row `r`: `Σₖ H r k · Wo k 0 + bo`. -/
def logit (H : Fin 100000 → Fin 256 → EReal) (Wo : Mat 256 1) (bo : EReal) (r : Fin 100000) : EReal :=
  (∑ k : Fin 256, H r k * Wo (ix2 k 0)) + bo

end Cert.Sage

end
-- ==== Proof.KBlocks.lean ====
/-
  From the blocks the grid points write to the two result arrays. Point t of the twenty handles rows 5000·t … 5000·t + 4999:
  it reads those rows of the segment sums, the counts and the transaction features, and the whole weight arrays, and
  writes those rows of the hidden layer and of the scores. Row p of point t's blocks is row 5000·t + p of the arrays,
  the blocks of the twenty points tile the hundred thousand rows, and so each result array is the specification's
  formula of the arrays as the region finds them, at every index.
-/
import proofs.«422967_j64759516889783_2_alg».proof.Proof.Gen.KernelIdeal.Frame
import proofs.«422967_j64759516889783_2_alg».proof.Proof.KBody
import proofs.«422967_j64759516889783_2_alg».proof.Proof.Spec

set_option maxRecDepth 16384

noncomputable section

namespace Cert.Sage.K

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.Sage

variable (m : (ℓ : Loc nD τ sig) → Buf (Elt Ideal) ℓ)

/-! ### The arrays as the region finds them, each at its literal type -/

/-- The segment sums. -/
def aS (c : Dev nD) : Vec Ideal S100000x256 .f32 := V m c (Pipeline.arrRef spec0 0)
/-- The segment counts, as a column. -/
def aC (c : Dev nD) : Vec Ideal S100000x1 .f32 := V m c (Pipeline.arrRef spec0 1)
/-- The transaction features. -/
def aX (c : Dev nD) : Vec Ideal S100000x256 .f32 := V m c (Pipeline.arrRef spec0 2)
/-- The weights applied to the mean. -/
def aWl (c : Dev nD) : Vec Ideal S256x256 .f32 := V m c (Pipeline.arrRef spec0 3)
/-- The bias, as a row. -/
def aBl (c : Dev nD) : Vec Ideal S1x256 .f32 := V m c (Pipeline.arrRef spec0 4)
/-- The weights applied to the row's own features. -/
def aWr (c : Dev nD) : Vec Ideal S256x256 .f32 := V m c (Pipeline.arrRef spec0 5)
/-- The output weights, a column. -/
def aWo (c : Dev nD) : Vec Ideal S256x1 .f32 := V m c (Pipeline.arrRef spec0 6)
/-- The output bias, one entry. -/
def aBo (c : Dev nD) : Vec Ideal S1x1 .f32 := V m c (Pipeline.arrRef spec0 7)

/-- The hidden layer as one array. -/
def hid (c : Dev nD) : Vec Ideal S100000x256 .f32 := fun i =>
  hidden (aS m c) (fun r => aC m c (ix2 r 0)) (aX m c) (aWl m c) (fun q => aBl m c (ix2 0 q)) (aWr m c) (i 0) (i 1)

/-- The scores as one column array. -/
def sco (c : Dev nD) : Vec Ideal S100000x1 .f32 := fun i =>
  logit (fun r k => hid m c (ix2 r k)) (aWo m c) (aBo m c (ix2 0 0)) (i 0)

/-! ### The grid -/

theorem hz : (![0, 0] : Fin 2 → Nat) = fun _ => 0 := funext fun a => by fin_cases a <;> rfl

/-- Every window that moves with the grid sits at block row t, block column 0; the weight windows stay at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = t.val ∧ win0_8.index t (1 : Fin 2) = 0
    ∧ win0_9.index t (0 : Fin 2) = t.val ∧ win0_9.index t (1 : Fin 2) = 0 :=
  (by decide +kernel : ∀ t : Fin grid0.N, _)

theorem t_lt (t : Fin cfg0.N) : t.val < 20 := lt_of_lt_of_eq t.isLt N_0

/-- Row p of point t's blocks, as a row of the arrays. -/
def row (t : Fin cfg0.N) (p : Fin 5000) : Fin 100000 := ⟨t.val * 5000 + p.val, by have := t_lt t; have := p.isLt; omega⟩

/-! ### Where each block's entries sit in its array -/

theorem emb0 (t : Fin cfg0.N) (p : Fin 5000) (k : Fin 256) : ((cfg0.win 0).blk t).view.emb (ix2 p k) = ix2 (row t p) k := by
  obtain ⟨e0, e1, -⟩ := idx_facts t
  funext a; apply Fin.ext
  match a with
  | ⟨0, _⟩ => show win0_0.index t (0 : Fin 2) * 5000 + 1 * p.val = t.val * 5000 + p.val; omega
  | ⟨1, _⟩ => show win0_0.index t (1 : Fin 2) * 256 + 1 * k.val = k.val; omega
theorem emb1 (t : Fin cfg0.N) (p : Fin 5000) : ((cfg0.win 1).blk t).view.emb (ix2 p 0) = ix2 (row t p) 0 := by
  obtain ⟨-, -, e0, e1, -⟩ := idx_facts t
  funext a; apply Fin.ext
  match a with
  | ⟨0, _⟩ => show win0_1.index t (0 : Fin 2) * 5000 + 1 * p.val = t.val * 5000 + p.val; omega
  | ⟨1, _⟩ => show win0_1.index t (1 : Fin 2) * 1 + 1 * 0 = 0; omega
theorem emb2 (t : Fin cfg0.N) (p : Fin 5000) (k : Fin 256) : ((cfg0.win 2).blk t).view.emb (ix2 p k) = ix2 (row t p) k := by
  obtain ⟨-, -, -, -, e0, e1, -⟩ := idx_facts t
  funext a; apply Fin.ext
  match a with
  | ⟨0, _⟩ => show win0_2.index t (0 : Fin 2) * 5000 + 1 * p.val = t.val * 5000 + p.val; omega
  | ⟨1, _⟩ => show win0_2.index t (1 : Fin 2) * 256 + 1 * k.val = k.val; omega
theorem emb3 (t : Fin cfg0.N) (k q : Fin 256) : ((cfg0.win 3).blk t).view.emb (ix2 k q) = ix2 k q := by
  obtain ⟨-, -, -, -, -, -, e0, e1, -⟩ := idx_facts t
  funext a; apply Fin.ext
  match a with
  | ⟨0, _⟩ => show win0_3.index t (0 : Fin 2) * 256 + 1 * k.val = k.val; omega
  | ⟨1, _⟩ => show win0_3.index t (1 : Fin 2) * 256 + 1 * q.val = q.val; omega
theorem emb4 (t : Fin cfg0.N) (q : Fin 256) : ((cfg0.win 4).blk t).view.emb (ix2 0 q) = ix2 0 q := by
  obtain ⟨-, -, -, -, -, -, -, -, e0, e1, -⟩ := idx_facts t
  funext a; apply Fin.ext
  match a with
  | ⟨0, _⟩ => show win0_4.index t (0 : Fin 2) * 1 + 1 * 0 = 0; omega
  | ⟨1, _⟩ => show win0_4.index t (1 : Fin 2) * 256 + 1 * q.val = q.val; omega
theorem emb5 (t : Fin cfg0.N) (k q : Fin 256) : ((cfg0.win 5).blk t).view.emb (ix2 k q) = ix2 k q := by
  obtain ⟨-, -, -, -, -, -, -, -, -, -, e0, e1, -⟩ := idx_facts t
  funext a; apply Fin.ext
  match a with
  | ⟨0, _⟩ => show win0_5.index t (0 : Fin 2) * 256 + 1 * k.val = k.val; omega
  | ⟨1, _⟩ => show win0_5.index t (1 : Fin 2) * 256 + 1 * q.val = q.val; omega
theorem emb6 (t : Fin cfg0.N) (k : Fin 256) : ((cfg0.win 6).blk t).view.emb (ix2 k 0) = ix2 k 0 := by
  obtain ⟨-, -, -, -, -, -, -, -, -, -, -, -, e0, e1, -⟩ := idx_facts t
  funext a; apply Fin.ext
  match a with
  | ⟨0, _⟩ => show win0_6.index t (0 : Fin 2) * 256 + 1 * k.val = k.val; omega
  | ⟨1, _⟩ => show win0_6.index t (1 : Fin 2) * 1 + 1 * 0 = 0; omega
theorem emb7 (t : Fin cfg0.N) : ((cfg0.win 7).blk t).view.emb (ix2 0 0) = ix2 0 0 := by
  obtain ⟨-, -, -, -, -, -, -, -, -, -, -, -, -, -, e0, e1, -⟩ := idx_facts t
  funext a; apply Fin.ext
  match a with
  | ⟨0, _⟩ => show win0_7.index t (0 : Fin 2) * 1 + 1 * 0 = 0; omega
  | ⟨1, _⟩ => show win0_7.index t (1 : Fin 2) * 1 + 1 * 0 = 0; omega
theorem emb8 (t : Fin cfg0.N) (p : Fin 5000) (q : Fin 256) : ((cfg0.win 8).blk t).view.emb (ix2 p q) = ix2 (row t p) q := by
  obtain ⟨-, -, -, -, -, -, -, -, -, -, -, -, -, -, -, -, e0, e1, -⟩ := idx_facts t
  funext a; apply Fin.ext
  match a with
  | ⟨0, _⟩ => show win0_8.index t (0 : Fin 2) * 5000 + 1 * p.val = t.val * 5000 + p.val; omega
  | ⟨1, _⟩ => show win0_8.index t (1 : Fin 2) * 256 + 1 * q.val = q.val; omega
theorem emb9 (t : Fin cfg0.N) (p : Fin 5000) : ((cfg0.win 9).blk t).view.emb (ix2 p 0) = ix2 (row t p) 0 := by
  obtain ⟨-, -, -, -, -, -, -, -, -, -, -, -, -, -, -, -, -, -, e0, e1⟩ := idx_facts t
  funext a; apply Fin.ext
  match a with
  | ⟨0, _⟩ => show win0_9.index t (0 : Fin 2) * 5000 + 1 * p.val = t.val * 5000 + p.val; omega
  | ⟨1, _⟩ => show win0_9.index t (1 : Fin 2) * 1 + 1 * 0 = 0; omega

/-! ### Each block is its array read at the point's rows -/

theorem blkS (c : Dev nD) (t : Fin cfg0.N) (p : Fin 5000) (k : Fin 256) : iblk m c 0 t (ix2 p k) = aS m c (ix2 (row t p) k) := by
  unfold iblk aS; rw [View.read_apply, emb0]; exact cast_eq _ _
theorem blkC (c : Dev nD) (t : Fin cfg0.N) (p : Fin 5000) : iblk m c 1 t (ix2 p 0) = aC m c (ix2 (row t p) 0) := by
  unfold iblk aC; rw [View.read_apply, emb1]; exact cast_eq _ _
theorem blkX (c : Dev nD) (t : Fin cfg0.N) (p : Fin 5000) (k : Fin 256) : iblk m c 2 t (ix2 p k) = aX m c (ix2 (row t p) k) := by
  unfold iblk aX; rw [View.read_apply, emb2]; exact cast_eq _ _
theorem blkWl (c : Dev nD) (t : Fin cfg0.N) (k q : Fin 256) : iblk m c 3 t (ix2 k q) = aWl m c (ix2 k q) := by
  unfold iblk aWl; rw [View.read_apply, emb3]; exact cast_eq _ _
theorem blkBl (c : Dev nD) (t : Fin cfg0.N) (q : Fin 256) : iblk m c 4 t (ix2 0 q) = aBl m c (ix2 0 q) := by
  unfold iblk aBl; rw [View.read_apply, emb4]; exact cast_eq _ _
theorem blkWr (c : Dev nD) (t : Fin cfg0.N) (k q : Fin 256) : iblk m c 5 t (ix2 k q) = aWr m c (ix2 k q) := by
  unfold iblk aWr; rw [View.read_apply, emb5]; exact cast_eq _ _
theorem blkWo (c : Dev nD) (t : Fin cfg0.N) (k : Fin 256) : iblk m c 6 t (ix2 k 0) = aWo m c (ix2 k 0) := by
  unfold iblk aWo; rw [View.read_apply, emb6]; exact cast_eq _ _
theorem blkBo (c : Dev nD) (t : Fin cfg0.N) : iblk m c 7 t (ix2 0 0) = aBo m c (ix2 0 0) := by
  unfold iblk aBo; rw [View.read_apply, emb7]; exact cast_eq _ _

end Cert.Sage.K

end
-- ==== Proof.KFinal.lean ====
/-
  The two result arrays after the run. At point t, entry (p, q) of the hidden block is the specification's hidden
  layer at row 5000·t + p, column q, and entry (p, 0) of the score block is the specification's score of that row:
  the body's formulas with each block entry replaced by the array entry it is. Every row lies in exactly the block of
  the point t = row / 5000, so the blocks written back cover both arrays, which therefore end as the specification's
  two arrays.
-/
import proofs.«422967_j64759516889783_2_alg».proof.Proof.KBlocks

set_option maxRecDepth 16384

noncomputable section

namespace Cert.Sage.K

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.Sage

variable (m : (ℓ : Loc nD τ sig) → Buf (Elt Ideal) ℓ)

/-! ### What a point computes -/

/-- The hidden block's entry (p, q) at point t is the hidden layer at (5000·t + p, q). -/
theorem hid_blk (c : Dev nD) (t : Fin cfg0.N) (p : Fin 5000) (q : Fin 256) :
    k0_pay1 (F := Ideal) (iblk m c 1 t) (iblk m c 0 t) (iblk m c 3 t) (iblk m c 4 t) (iblk m c 2 t) (iblk m c 5 t) (ix2 p q)
      = hid m c (ix2 (row t p) q) := by
  refine (pay1_apply (iblk m c 1 t) (iblk m c 0 t) (iblk m c 3 t) (iblk m c 4 t) (iblk m c 2 t) (iblk m c 5 t) p q).trans ?_
  simp only [blkS, blkC, blkX, blkWl, blkBl, blkWr]
  rfl

/-- The score block's entry (p, 0) at point t is the score of row 5000·t + p. -/
theorem sco_blk (c : Dev nD) (t : Fin cfg0.N) (p : Fin 5000) :
    k0_pay2 (F := Ideal) (iblk m c 1 t) (iblk m c 0 t) (iblk m c 3 t) (iblk m c 4 t) (iblk m c 2 t) (iblk m c 5 t) (iblk m c 6 t) (iblk m c 7 t) (ix2 p 0)
      = sco m c (ix2 (row t p) 0) := by
  refine (pay2_apply (iblk m c 1 t) (iblk m c 0 t) (iblk m c 3 t) (iblk m c 4 t) (iblk m c 2 t) (iblk m c 5 t) (iblk m c 6 t) (iblk m c 7 t) p).trans ?_
  simp only [hid_blk, blkWo, blkBo]
  rfl

/-! ### What a point writes back -/

theorem flushed8_eq (c : Dev nD) (t : Fin cfg0.N) :
    (dats m 0 c).flushed 8 t = ((cfg0.win 8).blk t).view.read (Elt Ideal) (hid m c) := by
  show (cfg0.win 8).cut (grid0.coords t) ((dats m 0 c).after 8 t) = _
  rw [after0_8]
  unfold out0_8
  rw [View.canon_unit_zero hz]
  simp only [View.ld_unit_zero (S := S5000x256) hz, View.ld_unit_zero (S := S5000x1) hz, View.ld_unit_zero (S := S256x256) hz,
    View.ld_unit_zero (S := S1x256) hz]
  funext j
  obtain ⟨p, q, rfl⟩ : ∃ (p : Fin 5000) (q : Fin 256), j = ix2 p q := ⟨j 0, j 1, eq_ix2 j⟩
  rw [View.read_apply, emb8]
  exact (hid_blk m c t p q).trans (cast_eq _ _).symm

theorem flushed9_eq (c : Dev nD) (t : Fin cfg0.N) :
    (dats m 0 c).flushed 9 t = ((cfg0.win 9).blk t).view.read (Elt Ideal) (sco m c) := by
  show (cfg0.win 9).cut (grid0.coords t) ((dats m 0 c).after 9 t) = _
  rw [after0_9]
  unfold out0_9
  rw [View.canon_unit_zero hz]
  simp only [View.ld_unit_zero (S := S5000x256) hz, View.ld_unit_zero (S := S5000x1) hz, View.ld_unit_zero (S := S256x256) hz,
    View.ld_unit_zero (S := S1x256) hz, View.ld_unit_zero (S := S256x1) hz, View.ld_unit_zero (S := S1x1) hz]
  funext j
  obtain ⟨p, z, rfl⟩ : ∃ (p : Fin 5000) (z : Fin 1), j = ix2 p z := ⟨j 0, j 1, eq_ix2 j⟩
  obtain rfl : z = 0 := Subsingleton.elim _ _
  rw [View.read_apply, emb9]
  exact (sco_blk m c t p).trans (cast_eq _ _).symm

/-! ### The blocks cover the arrays -/

theorem mem_blk8 (t : Fin cfg0.N) (i : S100000x256.Idx) :
    i ∈ ((cfg0.win 8).blk t).view.set ↔ ∀ a : Fin 2, win0_8.index t a * S5000x256.size a ≤ (i a).val ∧ (i a).val < win0_8.index t a * S5000x256.size a + S5000x256.size a := by
  show i ∈ ((View.whole main_v24_0).slice (win0_8.rect t)).set ↔ _
  rw [View.set_slice_whole, Rect.mem_set_unit]
  exact Iff.rfl

theorem cover8 (i : S100000x256.Idx) : ∃ t : Fin cfg0.N, (cfg0.win 8).flush t = true ∧ i ∈ ((cfg0.win 8).blk t).view.set := by
  have hi0 : (i 0).val < 100000 := (i 0).isLt
  have hi1 : (i 1).val < 256 := (i 1).isLt
  have hN : (i 0).val / 5000 < cfg0.N := lt_of_lt_of_eq (show (i 0).val / 5000 < 20 by omega) N_0.symm
  obtain ⟨-, -, -, -, -, -, -, -, -, -, -, -, -, -, -, -, e0, e1, -⟩ := idx_facts ⟨(i 0).val / 5000, hN⟩
  refine ⟨⟨(i 0).val / 5000, hN⟩, flush0_8 _, ?_⟩
  rw [mem_blk8]
  intro a
  match a with
  | ⟨0, _⟩ => show win0_8.index ⟨(i 0).val / 5000, hN⟩ (0 : Fin 2) * 5000 ≤ (i 0).val ∧ (i 0).val < win0_8.index ⟨(i 0).val / 5000, hN⟩ (0 : Fin 2) * 5000 + 5000; simp only at e0; omega
  | ⟨1, _⟩ => show win0_8.index ⟨(i 0).val / 5000, hN⟩ (1 : Fin 2) * 256 ≤ (i 1).val ∧ (i 1).val < win0_8.index ⟨(i 0).val / 5000, hN⟩ (1 : Fin 2) * 256 + 256; omega

theorem mem_blk9 (t : Fin cfg0.N) (i : S100000x1.Idx) :
    i ∈ ((cfg0.win 9).blk t).view.set ↔ ∀ a : Fin 2, win0_9.index t a * S5000x1.size a ≤ (i a).val ∧ (i a).val < win0_9.index t a * S5000x1.size a + S5000x1.size a := by
  show i ∈ ((View.whole main_v24_1).slice (win0_9.rect t)).set ↔ _
  rw [View.set_slice_whole, Rect.mem_set_unit]
  exact Iff.rfl

theorem cover9 (i : S100000x1.Idx) : ∃ t : Fin cfg0.N, (cfg0.win 9).flush t = true ∧ i ∈ ((cfg0.win 9).blk t).view.set := by
  have hi0 : (i 0).val < 100000 := (i 0).isLt
  have hi1 : (i 1).val < 1 := (i 1).isLt
  have hN : (i 0).val / 5000 < cfg0.N := lt_of_lt_of_eq (show (i 0).val / 5000 < 20 by omega) N_0.symm
  obtain ⟨-, -, -, -, -, -, -, -, -, -, -, -, -, -, -, -, -, -, e0, e1⟩ := idx_facts ⟨(i 0).val / 5000, hN⟩
  refine ⟨⟨(i 0).val / 5000, hN⟩, flush0_9 _, ?_⟩
  rw [mem_blk9]
  intro a
  match a with
  | ⟨0, _⟩ => show win0_9.index ⟨(i 0).val / 5000, hN⟩ (0 : Fin 2) * 5000 ≤ (i 0).val ∧ (i 0).val < win0_9.index ⟨(i 0).val / 5000, hN⟩ (0 : Fin 2) * 5000 + 5000; simp only at e0; omega
  | ⟨1, _⟩ => show win0_9.index ⟨(i 0).val / 5000, hN⟩ (1 : Fin 2) * 1 ≤ (i 1).val ∧ (i 1).val < win0_9.index ⟨(i 0).val / 5000, hN⟩ (1 : Fin 2) * 1 + 1; omega

/-! ### The arrays after the run -/

/-- The hidden-layer array after the run is the specification's. -/
theorem final8 (c : Dev nD) : (dats m 0 c).arrAt 8 cfg0.N = hid m c :=
  (dats m 0 c).arrAt_eq_of_cover 8 (hid m c) (fun t _ => flushed8_eq m c t) cover8

/-- The score column after the run is the specification's. -/
theorem final9 (c : Dev nD) : (dats m 0 c).arrAt 9 cfg0.N = sco m c :=
  (dats m 0 c).arrAt_eq_of_cover 9 (sco m c) (fun t _ => flushed9_eq m c t) cover9

end Cert.Sage.K

end
-- ==== Proof.KRun.lean ====
/-
  The kernel program's run, read. After the region the score column is re-laid as a vector, row p of the column
  becoming entry p; nothing else is computed. So every weakly fair execution ends with the returned scores at the
  specification's scores, the returned hidden layer at the specification's hidden layer, and the argument arrays as
  they were.
-/
import proofs.«422967_j64759516889783_2_alg».proof.Proof.KFinal
import Idealize.ShloMosaic.Lib.StableHlo.Run

set_option maxRecDepth 16384

noncomputable section

namespace Cert.Sage.K

open Cert.KernelIdeal Cert.KernelIdeal.Gen
open Idealize.ShloMosaic Idealize.ShloMosaic.TcCoe Idealize.ShloMosaic.ValueIdx Idealize.SL.Sem Idealize.ShloMosaic.StableHlo
open Idealize.ShloMosaic.Pipeline (Dat Cfg Window)
open Cert.Sage

variable (m : (ℓ : Loc nD τ sig) → Buf (Elt Ideal) ℓ) (ρ : Dev nD → PrngReg)

/-- The scores as the program returns them: the column re-laid as a vector. -/
def scoVec (c : Dev nD) : Vec Ideal S100000 .f32 := shapeCast S100000 (sco m c) shapeCasts_S100000x1_S100000

/-- Entry p of the returned scores is row p of the column. -/
theorem scoVec_apply (c : Dev nD) (p : Fin 100000) : scoVec m c (ix1 p) = sco m c (ix2 p 0) :=
  shapeCast_apply (sco m c) shapeCasts_S100000x1_S100000 (ix1 p) (ix2 p 0) (by
    rewrite [Shape.rowMajor_val_two, Shape.rowMajor_val_one]; show p.val * 1 + 0 = p.val; omega)

/-- What the line after the region leaves in the returned scores. -/
theorem tail_v25 (c : Dev nD) : Pipeline.afterTail₀ cfgs (dats m) 0 (V0 m) [hostOps1] c main_v25 = scoVec m c := by
  have hw : Pipeline.withArrays (cfgs 0).spec c (V0 m c) (fun w => (dats m 0 c).arrAt w (cfgs 0).N) (Proc.devRef .tc main_v24_1) = sco m c :=
    (Pipeline.withArrays_arr spec0 launch0.win.arr_inj c _ _ 9).trans (final9 m c)
  unfold Pipeline.afterTail₀
  show StableHlo.after hostOps1 _ (Proc.devRef .tc main_v25) = _
  after_results
  rw [hw]
  rfl

/-- THE RUN: the two results at the specification's arrays, the arguments kept. -/
theorem run : θ_run defs (onTc (τ := τ) (main (F := Ideal))) ⟨m, fun _ => 0, ρ⟩ (fun r => ∀ c : Dev nD,
      r.2.mem ((c.tc : Thread nD τ).loc main_v25) = scoVec m c
      ∧ r.2.mem ((c.tc : Thread nD τ).loc main_v24_0) = hid m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h c => ⟨((h c).2 main_v25 (Pipeline.mem_restRefs_of main_v25 (by decide) (by decide))).trans (tail_v25 m c),
      ((h c).1 8).trans (final8 m c),
      ((h c).1 2).trans (((dats m 0 c).arrAt_in 2 rfl _).trans ((A_eq m c 2).trans (V_main_arg0 m c))),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      ((h c).1 3).trans (((dats m 0 c).arrAt_in 3 rfl _).trans ((A_eq m c 3).trans (V_main_arg6 m c))),
      (((h c).2 main_arg7 (Pipeline.mem_restRefs_of main_arg7 (by decide) (by decide))).trans (W_main_arg7 m (dats m) c)),
      ((h c).1 5).trans (((dats m 0 c).arrAt_in 5 rfl _).trans ((A_eq m c 5).trans (V_main_arg8 m c))),
      (((h c).2 main_arg9 (Pipeline.mem_restRefs_of main_arg9 (by decide) (by decide))).trans (W_main_arg9 m (dats m) c)),
      (((h c).2 main_arg10 (Pipeline.mem_restRefs_of main_arg10 (by decide) (by decide))).trans (W_main_arg10 m (dats m) c)),
      (((h c).2 main_arg11 (Pipeline.mem_restRefs_of main_arg11 (by decide) (by decide))).trans (W_main_arg11 m (dats m) c)),
      ((h c).1 6).trans (((dats m 0 c).arrAt_in 6 rfl _).trans ((A_eq m c 6).trans (V_main_arg12 m c))),
      (((h c).2 main_arg13 (Pipeline.mem_restRefs_of main_arg13 (by decide) (by decide))).trans (W_main_arg13 m (dats m) c))⟩) (run_main m ρ)

end Cert.Sage.K

end
-- ==== Proof.LibScatterCount.lean ====
/-
  A count, two ways. An integer scatter whose body adds, run over an operand of zeros with every update equal to one,
  leaves at each operand element the NUMBER of update positions whose result index is that element (a position whose
  window leaves the operand is dropped and counts nowhere). Read as a signed integer and converted to a float at the
  exact instance, that number is the extended real it denotes; and the float scatter-add of ones into zeros at the
  exact instance is the sum of one per such position: the same number. Nothing here depends on a program: the lemmas
  are stated for any scatter dimension numbers, with the one proviso that the number of update positions is below
  2^31, so that the 32-bit count never wraps and reads back non-negative.
-/
import Idealize.ShloMosaic.PureOps
import Idealize.ShloMosaic.PureOps.Ideal.Laws
import Idealize.ShloMosaic.Lib.IdealHost

noncomputable section

namespace Cert.LibScatterCount

open Idealize.ShloMosaic

/-- The positions of the update whose result index is the operand element `i`. -/
def hits {s si u : Shape} (d : ScatterDims s si u) {w : Nat} (idx : IVec si w) (i : s.Idx) : Finset u.Idx :=
  Finset.univ.filter fun j => d.resultIdx? j idx = some i

/-- The fold of the scatter step with an adding body and every update one, over any list of update positions
    and from any operand: each operand element gains the number of listed positions whose result index it is. -/
private theorem foldl_count {s si u : Shape} (d : ScatterDims s si u) {w : Nat} (idx : IVec si w)
    (l : List (Fin u.numel)) (x : s.Idx → BitVec 32) (i : s.Idx) :
    l.foldl (fun r n =>
      match d.resultIdx? (u.rowMajor.symm n) idx with
      | some i => fun i' => if i' = i then IntOp.addi (r i) ((fun _ => (1#32 : BitVec 32)) (u.rowMajor.symm n)) else r i'
      | none => r) x i
    = x i + BitVec.ofNat 32 (l.countP (fun n => decide (d.resultIdx? (u.rowMajor.symm n) idx = some i))) := by
  induction l generalizing x with
  | nil => simp
  | cons n l ih =>
    rw [List.foldl_cons, ih, List.countP_cons]
    cases h : d.resultIdx? (u.rowMajor.symm n) idx with
    | none => simp
    | some i₀ =>
      by_cases hi : i = i₀
      · subst hi
        simp [IntOp.addi, BitVec.ofNat_add, BitVec.add_assoc, BitVec.add_comm]
      · have : ¬ (some i₀ = some i) := fun e => hi (Option.some.inj e).symm
        simp [hi, this]

/-- Counting the members of `0, …, n-1` with a property along the list is the size of the set of them. -/
private theorem countP_finRange {n : Nat} (p : Fin n → Prop) [DecidablePred p] :
    (List.finRange n).countP (fun k => decide (p k)) = (Finset.univ.filter p).card := by
  simp [Finset.card, Finset.filter, Fin.univ_def, List.countP_eq_length_filter]

/-- Row-major position is a bijection, so the row-major positions landing at `i` are as many as the multi-indices
    landing at `i`. -/
private theorem card_hits {s si u : Shape} (d : ScatterDims s si u) {w : Nat} (idx : IVec si w) (i : s.Idx) :
    (Finset.univ.filter fun n : Fin u.numel => d.resultIdx? (u.rowMajor.symm n) idx = some i).card = (hits d idx i).card := by
  apply Finset.card_equiv u.rowMajor.symm
  intro n
  simp [hits]

/-- No operand element is hit by more positions than the update has. -/
theorem card_hits_le {s si u : Shape} (d : ScatterDims s si u) {w : Nat} (idx : IVec si w) (i : s.Idx) :
    (hits d idx i).card ≤ u.numel := by
  have := Finset.card_le_univ (hits d idx i)
  rwa [Shape.card_idx] at this

/-- The integer scatter-add of ones into zeros counts, at each operand element, the update positions that land there
    (as a 32-bit word: the count modulo 2^32). -/
theorem scatter_addi_ones_apply {s si u : Shape} (d : ScatterDims s si u) {w : Nat} (idx : IVec si w) (i : s.Idx) :
    Host.scatter d IntOp.addi (fun _ => (0#32 : BitVec 32)) idx (fun _ => (1#32 : BitVec 32)) i
      = BitVec.ofNat 32 (hits d idx i).card := by
  refine (foldl_count d idx (List.finRange u.numel) (fun _ => 0#32) i).trans ?_
  rw [countP_finRange, card_hits]
  simp

/-- The float scatter-add of ones into zeros, at the exact instance, is that count as an extended real. -/
theorem scatterAdd_ones_apply {s si u : Shape} (d : ScatterDims s si u) {w : Nat} (idx : IVec si w) (i : s.Idx) :
    Host.scatterAdd (F := Ideal) (φ := .f32) d (fun _ => (0 : EReal)) idx (fun _ => (1 : EReal)) i
      = (((hits d idx i).card : ℝ) : EReal) := by
  show (0 : EReal) + ∑ j ∈ hits d idx i, (1 : EReal) = _
  rw [Finset.sum_const, zero_add, nsmul_one]
  norm_cast

/-- The integer count converted to a float is the float count, when the update has fewer than 2^31 positions. -/
theorem sitofp_scatter_ones {s si u : Shape} (d : ScatterDims s si u) {w : Nat} (idx : IVec si w) (hu : u.numel < 2 ^ 31) :
    sitofp (F := Ideal) .f32 (Host.scatter d IntOp.addi (fun _ => (0#32 : BitVec 32)) idx (fun _ => (1#32 : BitVec 32)))
      = Host.scatterAdd (F := Ideal) (φ := .f32) d (fun _ => (0 : EReal)) idx (fun _ => (1 : EReal)) := by
  funext i
  rw [scatterAdd_ones_apply]
  show (((Host.scatter d IntOp.addi (fun _ => (0#32 : BitVec 32)) idx (fun _ => (1#32 : BitVec 32)) i).toInt : ℝ) : EReal) = _
  rw [scatter_addi_ones_apply]
  have hc := card_hits_le d idx i
  have h1 : (BitVec.ofNat 32 (hits d idx i).card).toNat = (hits d idx i).card := by
    rw [BitVec.toNat_ofNat]
    exact Nat.mod_eq_of_lt (by omega)
  have : (BitVec.ofNat 32 (hits d idx i).card).toInt = ((hits d idx i).card : Int) := by
    rw [BitVec.toInt_eq_toNat_of_lt (by rw [h1]; omega), h1]
  rw [this]
  norm_cast

end Cert.LibScatterCount

end
-- ==== Proof.CountBridge.lean ====
/-
  The two counts agree where no destination index is negative. The kernel counts with an integer scatter-add of ones
  at the indices max(d, 0) (a negative result then wrapped by the table's length, which never happens after the
  maximum), and converts the count to a float; the reference scatters float ones at the indices d themselves. Where
  every d is at least zero the maximum changes nothing, the two index vectors are one, and an integer count converted
  to a float is the float count.
-/
import proofs.«422967_j64759516889783_2_alg».proof.Proof.Gen.KernelIdeal
import proofs.«422967_j64759516889783_2_alg».proof.Proof.Gen.ReferenceIdeal.Read
import proofs.«422967_j64759516889783_2_alg».proof.Proof.LibScatterCount
import Idealize.ShloMosaic.Lib.Pipeline.Value
import Idealize.ShloMosaic.Lib.ValueIdx
import Idealize.ShloMosaic.Lib.IdealHost

noncomputable section

namespace Cert.Sage.Count

open Idealize.ShloMosaic Idealize.ShloMosaic.ValueIdx
open Cert.KernelIdeal Cert.KernelIdeal.Facts₀

/-- The kernel's index vector: the destination indices cut below at zero, a negative result wrapped by 100000. -/
def kidx (x3 : IVec S800000 32) : IVec S800000 32 :=
  select (cmpi .slt (maxsi (broadcastInDim S800000 ![] bcast_S_S800000 (id (constantI S_ 32 0#32))) x3)
      (broadcastInDim S800000 ![] bcast_S_S800000 (constantI S_ 32 0#32)))
    (addi (maxsi (broadcastInDim S800000 ![] bcast_S_S800000 (id (constantI S_ 32 0#32))) x3)
      (broadcastInDim S800000 ![] bcast_S_S800000 (constantI S_ 32 100000#32)))
    (maxsi (broadcastInDim S800000 ![] bcast_S_S800000 (id (constantI S_ 32 0#32))) x3)

/-- The two programs' scatter dimension numbers for the count are the same record. -/
theorem scatter_eq : Cert.KernelIdeal.scatter_S100000_S800000x1_S800000_n_0_0_1
    = Cert.ReferenceIdeal.scatter_S100000_S800000x1_S800000_n_0_0_1 := rfl

/-- A word that reads nonnegative is its own signed maximum with zero. -/
theorem maxsi_zero_of_nonneg {d : BitVec 32} (hd : 0 ≤ d.toInt) : IntOp.maxsi 0#32 d = d := by
  unfold IntOp.maxsi
  rw [if_neg]
  intro hlt
  have := BitVec.slt_iff_toInt_lt.1 hlt
  have h0 : (0#32 : BitVec 32).toInt = 0 := by decide
  omega

/-- A word that reads nonnegative is not signed-below zero. -/
theorem cmpi_slt_zero_of_nonneg {d : BitVec 32} (hd : 0 ≤ d.toInt) : IntOp.cmpi .slt d 0#32 = 0#1 := by
  apply eq_zero_of_ne_one
  intro e
  have := IntOp.cmpi_slt.1 e
  have h0 : (0#32 : BitVec 32).toInt = 0 := by decide
  omega

/-- Where no index is negative the kernel's index vector is the destination indices themselves. -/
theorem kidx_eq (x3 : IVec S800000 32) (h : ∀ i, 0 ≤ (x3 i).toInt) : kidx x3 = x3 := by
  funext i
  show Scalar.select (IntOp.cmpi .slt (IntOp.maxsi 0#32 (x3 i)) 0#32)
      (IntOp.addi (IntOp.maxsi 0#32 (x3 i)) 100000#32) (IntOp.maxsi 0#32 (x3 i)) = x3 i
  rw [maxsi_zero_of_nonneg (h i), cmpi_slt_zero_of_nonneg (h i), select_zero]

/-- The kernel's count as a float is the reference's count. -/
theorem count_eq (x3 : IVec S800000 32) (h : ∀ i, 0 ≤ (x3 i).toInt) :
    sitofp (F := Ideal) .f32
        (Host.scatter scatter_S100000_S800000x1_S800000_n_0_0_1 IntOp.addi
          (broadcastInDim S100000 ![] bcast_S_S100000 (constantI S_ 32 0#32))
          (broadcastInDim S800000x1 ![0] bcast_S800000_S800000x1_0 (kidx x3))
          (broadcastInDim S800000 ![] bcast_S_S800000 (constantI S_ 32 1#32)))
      = Cert.ReferenceIdeal.Read.val_main_v13 (F := Ideal) x3 := by
  rw [kidx_eq x3 h]
  -- the integer operand and update are the constant functions zero and one
  have e0 : (broadcastInDim S100000 ![] bcast_S_S100000 (constantI S_ 32 0#32)) = fun _ => (0#32 : BitVec 32) := rfl
  have e1 : (broadcastInDim S800000 ![] bcast_S_S800000 (constantI S_ 32 1#32)) = fun _ => (1#32 : BitVec 32) := rfl
  rw [e0, e1, Cert.LibScatterCount.sitofp_scatter_ones _ _ (by decide)]
  -- the float operand and update are the constant functions zero and one
  have f0 : Cert.ReferenceIdeal.Read.val_main_v11 (F := Ideal) = fun _ => (0 : EReal) := by
    funext j
    rw [Cert.ReferenceIdeal.Read.val_main_v11_apply, Cert.ReferenceIdeal.Read.val_main_cst_2_apply]
    exact Ideal.ofBits_zero_f32
  have f1 : Cert.ReferenceIdeal.Read.val_main_v10 (F := Ideal) = fun _ => (1 : EReal) := by
    funext j
    rw [Cert.ReferenceIdeal.Read.val_main_v10_apply, Cert.ReferenceIdeal.Read.val_main_cst_1_apply]
    exact Ideal.ofBits_one_f32
  unfold Cert.ReferenceIdeal.Read.val_main_v13 Cert.ReferenceIdeal.Read.val_main_v12
  rw [f0, f1, scatter_eq]

end Cert.Sage.Count

end
-- ==== Proof.KArrays.lean ====
/-
  What the host lines before the region leave in the four arrays they compute, as functions of the arguments.
  The segment sums: the account rows gathered at the source indices (a negative source index wrapped by the table's
  length), scatter-added into zeros at the destination indices. The count column: ones scatter-added, as integers, at
  the destination indices cut below at zero, converted to floats and laid out as a column. The bias as a row and the
  output bias as one entry: the arguments re-laid, nothing computed.
-/
import proofs.«422967_j64759516889783_2_alg».proof.Proof.Gen.KernelIdeal.Frame
import proofs.«422967_j64759516889783_2_alg».proof.Proof.CountBridge
import Idealize.ShloMosaic.Lib.StableHlo.Run
import Idealize.ShloMosaic.PureOps.Ideal.Laws

noncomputable section

namespace Cert.Sage.K

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ)

/-- The segment sums of the account rows `x1` gathered at `x2`, by destination `x3`. -/
def sumTerm (x1 : Vec Ideal S50000x256 .f32) (x2 x3 : IVec S800000 32) : Vec Ideal S100000x256 .f32 :=
  Host.scatterAdd scatter_S100000x256_S800000x1_S800000x256_1_0_0_1
    (broadcastInDim S100000x256 ![] bcast_S_S100000x256 (constant (F := Ideal) S_ .f32 0x00000000#32))
    (broadcastInDim S800000x1 ![0] bcast_S800000_S800000x1_0 x3)
    (Host.gather gather_S50000x256_S800000x1_S800000x256_1_0_n_n_0_1_1256 x1
      (broadcastInDim S800000x1 ![0] bcast_S800000_S800000x1_0
        (select (cmpi .slt x2 (broadcastInDim S800000 ![] bcast_S_S800000 (constantI S_ 32 0#32)))
          (addi x2 (broadcastInDim S800000 ![] bcast_S_S800000 (constantI S_ 32 50000#32))) x2)))

/-- The counts by destination `x3`, as floats: integer ones scatter-added at the indices cut below at zero. -/
def cntTerm (x3 : IVec S800000 32) : Vec Ideal S100000 .f32 :=
  sitofp (F := Ideal) .f32
    (Host.scatter scatter_S100000_S800000x1_S800000_n_0_0_1 IntOp.addi
      (broadcastInDim S100000 ![] bcast_S_S100000 (constantI S_ 32 0#32))
      (broadcastInDim S800000x1 ![0] bcast_S800000_S800000x1_0 (Cert.Sage.Count.kidx x3))
      (broadcastInDim S800000 ![] bcast_S_S800000 (constantI S_ 32 1#32)))

theorem V_v9 (c : Dev nD) : (V m c main_v9 : Vec Ideal S100000x256 .f32)
    = sumTerm (m ((c : Thread nD τ).loc main_arg1)) (m ((c : Thread nD τ).loc main_arg2)) (m ((c : Thread nD τ).loc main_arg3)) := by
  dsimp only [V, V0]
  simp only [hostOps0, hostOps0_1, hostOps0_2, List.flatten_cons, List.flatten_nil, List.append_nil, List.cons_append, List.nil_append]
  after_results_simp <;> rfl

theorem V_v21 (c : Dev nD) : (V m c main_v21 : Vec Ideal S100000x1 .f32)
    = shapeCast S100000x1 (cntTerm (m ((c : Thread nD τ).loc main_arg3))) shapeCasts_S100000_S100000x1 := by
  dsimp only [V, V0]
  simp only [hostOps0, hostOps0_1, hostOps0_2, List.flatten_cons, List.flatten_nil, List.append_nil, List.cons_append, List.nil_append]
  after_results_simp <;> rfl

theorem V_v22 (c : Dev nD) : (V m c main_v22 : Vec Ideal S1x256 .f32)
    = shapeCast S1x256 (m ((c : Thread nD τ).loc main_arg7) : Vec Ideal S256 .f32) shapeCasts_S256_S1x256 := by
  dsimp only [V, V0]
  simp only [hostOps0, hostOps0_1, hostOps0_2, List.flatten_cons, List.flatten_nil, List.append_nil, List.cons_append, List.nil_append]
  after_results_simp <;> rfl

theorem V_v23 (c : Dev nD) : (V m c main_v23 : Vec Ideal S1x1 .f32)
    = shapeCast S1x1 (m ((c : Thread nD τ).loc main_arg13) : Vec Ideal S1 .f32) shapeCasts_S1_S1x1 := by
  dsimp only [V, V0]
  simp only [hostOps0, hostOps0_1, hostOps0_2, List.flatten_cons, List.flatten_nil, List.append_nil, List.cons_append, List.nil_append]
  after_results_simp <;> rfl

end Cert.Sage.K

end
-- ==== Proof.RefValue.lean ====
/-
  The reference computes the two formulas of the specification. Read one operation at a time at an index: the
  hidden layer's entry (row p, column q) is the maximum with zero of  Σₖ (summed p k / max (count p) 1) · W_l k q
  + b_l q + Σₖ x_tx p k · W_r k q,  and the score of row p is  Σₖ hidden p k · W_out k 0 + b_out 0.  The segment sum
  `summed` and the segment count `count` are left as the reference's own terms.
-/
import proofs.«422967_j64759516889783_2_alg».proof.Proof.Gen.ReferenceIdeal.Read
import proofs.«422967_j64759516889783_2_alg».proof.Proof.Spec

noncomputable section

namespace Cert.Sage.Ref

open Cert.ReferenceIdeal Cert.ReferenceIdeal.Gen Cert.ReferenceIdeal.Read
open Idealize.ShloMosaic Idealize.ShloMosaic.ValueIdx Cert.Sage

/-! ### The index maps of the layout operations, at coordinates -/

theorem l19 (p : Fin 100000) (q k : Fin 256) : lidx_main_v19 (ix2 p q) k = ix2 p k :=
  funext fun a => Fin.ext (by match a with | ⟨0, _⟩ => rfl | ⟨1, _⟩ => rfl)
theorem r19 (p : Fin 100000) (q k : Fin 256) : ridx_main_v19 (ix2 p q) k = ix2 k q :=
  funext fun a => Fin.ext (by match a with | ⟨0, _⟩ => rfl | ⟨1, _⟩ => rfl)
theorem l23 (p : Fin 100000) (q k : Fin 256) : lidx_main_v23 (ix2 p q) k = ix2 p k :=
  funext fun a => Fin.ext (by match a with | ⟨0, _⟩ => rfl | ⟨1, _⟩ => rfl)
theorem r23 (p : Fin 100000) (q k : Fin 256) : ridx_main_v23 (ix2 p q) k = ix2 k q :=
  funext fun a => Fin.ext (by match a with | ⟨0, _⟩ => rfl | ⟨1, _⟩ => rfl)
theorem i17 (p : Fin 100000) (k : Fin 256) : idx_main_v16 (idx_main_v17 (ix2 p k)) = ix1 p :=
  funext fun a => Fin.ext (by match a with | ⟨0, _⟩ => rfl)
theorem i21 (p : Fin 100000) (q : Fin 256) : idx_main_v20 (idx_main_v21 (ix2 p q)) = ix1 q :=
  funext fun a => Fin.ext (by match a with | ⟨0, _⟩ => rfl)
theorem l52 (p : Fin 100000) (k : Fin 256) : lidx_main_v52 (idx_main_v56 (ix1 p)) k = ix2 p k :=
  funext fun a => Fin.ext (by match a with | ⟨0, _⟩ => exact Nat.div_one _ | ⟨1, _⟩ => rfl)
theorem r52 (p : Fin 100000) (k : Fin 256) : ridx_main_v52 (idx_main_v56 (ix1 p)) k = ix2 k 0 :=
  funext fun a => Fin.ext (by match a with | ⟨0, _⟩ => rfl | ⟨1, _⟩ => rfl)
theorem i54 (p : Fin 100000) : idx_main_v53 (idx_main_v54 (idx_main_v56 (ix1 p))) = ix1 0 :=
  funext fun a => Fin.ext (by match a with | ⟨0, _⟩ => rfl)

/-! ### The two results -/

/-- The mean's entry (p, k): the segment sum there over the larger of the segment count of row p and one. -/
theorem mean_entry (x1 : (⟨S50000x256, .f32⟩ : BufTy).Contents (Elt Ideal)) (x2 x3 : (⟨S800000, .i32⟩ : BufTy).Contents (Elt Ideal))
    (p : Fin 100000) (k : Fin 256) :
    val_main_v18 (F := Ideal) x1 x2 x3 (ix2 p k)
      = Ideal.div (val_main_v9 (F := Ideal) x1 x2 x3 (ix2 p k)) (max (val_main_v13 (F := Ideal) x3 (ix1 p)) (Ideal.ofBits .f32 0x3F800000#32)) := by
  rw [val_main_v18_apply, val_main_v17_apply, val_main_v16_apply, i17, val_main_v15_apply, val_main_v14_apply, val_main_cst_3_apply,
    Ideal.hostDivf_def, Ideal.maximumf_def, Ideal.ofBits_def]

/-- The reference's hidden layer is the specification's, of its own segment sum and segment count. -/
theorem hidden_eq (x0 : (⟨S100000x256, .f32⟩ : BufTy).Contents (Elt Ideal)) (x1 : (⟨S50000x256, .f32⟩ : BufTy).Contents (Elt Ideal))
    (x2 x3 : (⟨S800000, .i32⟩ : BufTy).Contents (Elt Ideal)) (x6 : (⟨S256x256, .f32⟩ : BufTy).Contents (Elt Ideal))
    (x7 : (⟨S256, .f32⟩ : BufTy).Contents (Elt Ideal)) (x8 : (⟨S256x256, .f32⟩ : BufTy).Contents (Elt Ideal))
    (p : Fin 100000) (q : Fin 256) :
    val_main_v50 (F := Ideal) x0 x1 x2 x3 x6 x7 x8 (ix2 p q)
      = hidden (val_main_v9 (F := Ideal) x1 x2 x3) (fun r => val_main_v13 (F := Ideal) x3 (ix1 r)) x0 x6 (fun c => x7 (ix1 c)) x8 p q := by
  rw [val_main_v50_apply, val_main_v24_apply, val_main_v22_apply, val_main_v19_apply, val_main_v23_apply, val_main_v21_apply,
    val_main_v20_apply, i21, val_main_call0_v0_apply, val_main_call0_cst_apply]
  have e1 : ∀ k : Fin 256, val_main_v18 (F := Ideal) x1 x2 x3 (lidx_main_v19 (ix2 p q) k) * x6 (ridx_main_v19 (ix2 p q) k)
      = Ideal.div (val_main_v9 (F := Ideal) x1 x2 x3 (ix2 p k)) (max (val_main_v13 (F := Ideal) x3 (ix1 p)) (Ideal.ofBits .f32 0x3F800000#32)) * x6 (ix2 k q) :=
    fun k => by rw [l19, r19, mean_entry]
  have e2 : ∀ k : Fin 256, x0 (lidx_main_v23 (ix2 p q) k) * x8 (ridx_main_v23 (ix2 p q) k) = x0 (ix2 p k) * x8 (ix2 k q) :=
    fun k => by rw [l23, r23]
  rw [Finset.sum_congr rfl fun k _ => e1 k, Finset.sum_congr rfl fun k _ => e2 k, Ideal.maximumf_def, Ideal.addf_def, Ideal.addf_def,
    Ideal.ofBits_def]
  generalize val_main_v9 (F := Ideal) x1 x2 x3 = S
  generalize val_main_v13 (F := Ideal) x3 = C
  rfl

/-- The reference's score is the specification's, of its own hidden layer. -/
theorem logit_eq (x0 : (⟨S100000x256, .f32⟩ : BufTy).Contents (Elt Ideal)) (x1 : (⟨S50000x256, .f32⟩ : BufTy).Contents (Elt Ideal))
    (x2 x3 : (⟨S800000, .i32⟩ : BufTy).Contents (Elt Ideal)) (x6 : (⟨S256x256, .f32⟩ : BufTy).Contents (Elt Ideal))
    (x7 : (⟨S256, .f32⟩ : BufTy).Contents (Elt Ideal)) (x8 : (⟨S256x256, .f32⟩ : BufTy).Contents (Elt Ideal))
    (x12 : (⟨S256x1, .f32⟩ : BufTy).Contents (Elt Ideal)) (x13 : (⟨S1, .f32⟩ : BufTy).Contents (Elt Ideal)) (p : Fin 100000) :
    val_main_v56 (F := Ideal) x0 x1 x2 x3 x6 x7 x8 x12 x13 (ix1 p)
      = logit (fun r k => val_main_v50 (F := Ideal) x0 x1 x2 x3 x6 x7 x8 (ix2 r k)) x12 (x13 (ix1 0)) p := by
  rw [val_main_v56_apply, val_main_v55_apply, val_main_v52_apply, val_main_v54_apply, val_main_v53_apply, i54, Ideal.addf_def]
  have e : ∀ k : Fin 256, val_main_v50 (F := Ideal) x0 x1 x2 x3 x6 x7 x8 (lidx_main_v52 (idx_main_v56 (ix1 p)) k) * x12 (ridx_main_v52 (idx_main_v56 (ix1 p)) k)
      = val_main_v50 (F := Ideal) x0 x1 x2 x3 x6 x7 x8 (ix2 p k) * x12 (ix2 k 0) := fun k => by rw [l52, r52]
  rw [Finset.sum_congr rfl fun k _ => e k]
  generalize val_main_v50 (F := Ideal) x0 x1 x2 x3 x6 x7 x8 = H
  rfl

end Cert.Sage.Ref

end
-- ==== Proof.Bridge.lean ====
/-
  The two programs compute one function, where no destination index is negative. The kernel's arrays at the region's
  entry are the reference's own terms of the same arguments: the segment sums are the same chain of operations,
  the count column is the reference's segment count (this is where the sign of the destination indices is used), the
  bias row and the output bias are the arguments re-laid, and the remaining arrays are arguments. Put into the
  specification's two formulas, which both programs compute, this makes the hidden layers equal entry by entry, and
  then the scores.
-/
import proofs.«422967_j64759516889783_2_alg».proof.Proof.KRun
import proofs.«422967_j64759516889783_2_alg».proof.Proof.KArrays
import proofs.«422967_j64759516889783_2_alg».proof.Proof.RefValue

set_option maxRecDepth 16384

noncomputable section

namespace Cert.Sage.Bridge

open Cert.KernelIdeal Cert.KernelIdeal.Gen
open Idealize.ShloMosaic Idealize.ShloMosaic.TcCoe Idealize.ShloMosaic.ValueIdx Idealize.SL.Sem
open Cert.Sage Cert.Sage.K

variable (m : (ℓ : Loc nD τ sig) → Buf (Elt Ideal) ℓ)

/-! ### The arguments as launched, each at its literal type -/

abbrev A0 (c : Dev nD) : Vec Ideal S100000x256 .f32 := m ((c : Thread nD τ).loc main_arg0)
abbrev A1 (c : Dev nD) : Vec Ideal S50000x256 .f32 := m ((c : Thread nD τ).loc main_arg1)
abbrev A2 (c : Dev nD) : IVec S800000 32 := m ((c : Thread nD τ).loc main_arg2)
abbrev A3 (c : Dev nD) : IVec S800000 32 := m ((c : Thread nD τ).loc main_arg3)
abbrev A6 (c : Dev nD) : Vec Ideal S256x256 .f32 := m ((c : Thread nD τ).loc main_arg6)
abbrev A7 (c : Dev nD) : Vec Ideal S256 .f32 := m ((c : Thread nD τ).loc main_arg7)
abbrev A8 (c : Dev nD) : Vec Ideal S256x256 .f32 := m ((c : Thread nD τ).loc main_arg8)
abbrev A12 (c : Dev nD) : Vec Ideal S256x1 .f32 := m ((c : Thread nD τ).loc main_arg12)
abbrev A13 (c : Dev nD) : Vec Ideal S1 .f32 := m ((c : Thread nD τ).loc main_arg13)

/-! ### The kernel's arrays at the region's entry, in the arguments -/

theorem aS_eq (c : Dev nD) : aS m c = sumTerm (A1 m c) (A2 m c) (A3 m c) := V_v9 m c
theorem aX_eq (c : Dev nD) : aX m c = A0 m c := V_main_arg0 m c
theorem aWl_eq (c : Dev nD) : aWl m c = A6 m c := V_main_arg6 m c
theorem aWr_eq (c : Dev nD) : aWr m c = A8 m c := V_main_arg8 m c
theorem aWo_eq (c : Dev nD) : aWo m c = A12 m c := V_main_arg12 m c

/-- Row r of the count column is entry r of the counts. -/
theorem aC_at (c : Dev nD) (r : Fin 100000) : aC m c (ix2 r 0) = cntTerm (A3 m c) (ix1 r) := by
  have e : aC m c = shapeCast S100000x1 (cntTerm (A3 m c)) shapeCasts_S100000_S100000x1 := V_v21 m c
  rw [e]
  exact shapeCast_apply (cntTerm (A3 m c)) shapeCasts_S100000_S100000x1 (ix2 r 0) (ix1 r) (by
    rewrite [Shape.rowMajor_val_two, Shape.rowMajor_val_one]; show r.val = r.val * 1 + 0; omega)

/-- Column q of the bias row is entry q of the bias. -/
theorem aBl_at (c : Dev nD) (q : Fin 256) : aBl m c (ix2 0 q) = A7 m c (ix1 q) := by
  have e : aBl m c = shapeCast S1x256 (A7 m c) shapeCasts_S256_S1x256 := V_v22 m c
  rw [e]
  exact shapeCast_apply (A7 m c) shapeCasts_S256_S1x256 (ix2 0 q) (ix1 q) (by
    rewrite [Shape.rowMajor_val_two, Shape.rowMajor_val_one]; show q.val = 0 * 256 + q.val; omega)

/-- The one entry of the output bias. -/
theorem aBo_at (c : Dev nD) : aBo m c (ix2 0 0) = A13 m c (ix1 0) := by
  have e : aBo m c = shapeCast S1x1 (A13 m c) shapeCasts_S1_S1x1 := V_v23 m c
  rw [e]
  exact shapeCast_apply (A13 m c) shapeCasts_S1_S1x1 (ix2 0 0) (ix1 0) (by
    rewrite [Shape.rowMajor_val_two, Shape.rowMajor_val_one]; rfl)

/-! ### The reference's terms of the same arguments -/

theorem scatS_eq : Cert.ReferenceIdeal.scatter_S100000x256_S800000x1_S800000x256_1_0_0_1 = scatter_S100000x256_S800000x1_S800000x256_1_0_0_1 := rfl
theorem gath_eq : Cert.ReferenceIdeal.gather_S50000x256_S800000x1_S800000x256_1_0_n_n_0_1_1256 = gather_S50000x256_S800000x1_S800000x256_1_0_n_n_0_1_1256 := rfl

/-- The reference's segment sums are the kernel's: the same operations, one after the other. -/
theorem sum_bridge (x1 : Vec Ideal S50000x256 .f32) (x2 x3 : IVec S800000 32) :
    Cert.ReferenceIdeal.Read.val_main_v9 (F := Ideal) x1 x2 x3 = sumTerm x1 x2 x3 := by
  unfold Cert.ReferenceIdeal.Read.val_main_v9 Cert.ReferenceIdeal.Read.val_main_v8 Cert.ReferenceIdeal.Read.val_main_v7 Cert.ReferenceIdeal.Read.val_main_cst
    Cert.ReferenceIdeal.Read.val_main_v6 Cert.ReferenceIdeal.Read.val_main_v5 Cert.ReferenceIdeal.Read.val_main_v4 Cert.ReferenceIdeal.Read.val_main_v3
    Cert.ReferenceIdeal.Read.val_main_v2 Cert.ReferenceIdeal.Read.val_main_c_0 Cert.ReferenceIdeal.Read.val_main_v1 Cert.ReferenceIdeal.Read.val_main_v0
    Cert.ReferenceIdeal.Read.val_main_c sumTerm
  rw [scatS_eq, gath_eq]

/-- The kernel's counts are the reference's, where no destination index is negative. -/
theorem cnt_bridge (x3 : IVec S800000 32) (h : ∀ i, 0 ≤ (x3 i).toInt) : cntTerm x3 = Cert.ReferenceIdeal.Read.val_main_v13 (F := Ideal) x3 := by
  unfold cntTerm
  exact Cert.Sage.Count.count_eq x3 h

/-! ### The two results -/

/-- The reference's hidden layer, of the kernel's arguments, is the kernel's hidden-layer array. -/
theorem hid_eq (c : Dev nD) (h : ∀ i, 0 ≤ (A3 m c i).toInt) (p : Fin 100000) (q : Fin 256) :
    Cert.ReferenceIdeal.Read.val_main_v50 (F := Ideal) (A0 m c) (A1 m c) (A2 m c) (A3 m c) (A6 m c) (A7 m c) (A8 m c) (ix2 p q) = hid m c (ix2 p q) := by
  rw [Cert.Sage.Ref.hidden_eq, sum_bridge]
  have hC : (fun r : Fin 100000 => Cert.ReferenceIdeal.Read.val_main_v13 (F := Ideal) (A3 m c) (ix1 r)) = fun r => aC m c (ix2 r 0) :=
    funext fun r => by rw [aC_at, cnt_bridge _ h]
  have hB : (fun q : Fin 256 => A7 m c (ix1 q)) = fun q => aBl m c (ix2 0 q) := funext fun q => (aBl_at m c q).symm
  rw [hC, hB, ← aS_eq, ← aX_eq, ← aWl_eq, ← aWr_eq]
  rfl

/-- The reference's scores, of the kernel's arguments, are the kernel's returned scores. -/
theorem sco_eq (c : Dev nD) (h : ∀ i, 0 ≤ (A3 m c i).toInt) (p : Fin 100000) :
    Cert.ReferenceIdeal.Read.val_main_v56 (F := Ideal) (A0 m c) (A1 m c) (A2 m c) (A3 m c) (A6 m c) (A7 m c) (A8 m c) (A12 m c) (A13 m c) (ix1 p) = scoVec m c (ix1 p) := by
  rw [Cert.Sage.Ref.logit_eq, scoVec_apply]
  have hH : (fun (r : Fin 100000) (k : Fin 256) => Cert.ReferenceIdeal.Read.val_main_v50 (F := Ideal) (A0 m c) (A1 m c) (A2 m c) (A3 m c) (A6 m c) (A7 m c) (A8 m c) (ix2 r k))
      = fun r k => hid m c (ix2 r k) := funext fun r => funext fun k => hid_eq m c h r k
  rw [hH, ← aWo_eq, ← aBo_at]
  rfl

/-- The reference's hidden layer is the kernel's returned hidden layer, as arrays. -/
theorem hid_arr_eq (c : Dev nD) (h : ∀ i, 0 ≤ (A3 m c i).toInt) :
    Cert.ReferenceIdeal.Read.val_main_v50 (F := Ideal) (A0 m c) (A1 m c) (A2 m c) (A3 m c) (A6 m c) (A7 m c) (A8 m c) = hid m c := by
  funext i
  obtain ⟨p, q, rfl⟩ : ∃ (p : Fin 100000) (q : Fin 256), i = ix2 p q := ⟨i 0, i 1, eq_ix2 i⟩
  exact hid_eq m c h p q

/-- The reference's scores are the kernel's returned scores, as arrays. -/
theorem sco_arr_eq (c : Dev nD) (h : ∀ i, 0 ≤ (A3 m c i).toInt) :
    Cert.ReferenceIdeal.Read.val_main_v56 (F := Ideal) (A0 m c) (A1 m c) (A2 m c) (A3 m c) (A6 m c) (A7 m c) (A8 m c) (A12 m c) (A13 m c) = scoVec m c := by
  funext i
  obtain ⟨p, rfl⟩ : ∃ p : Fin 100000, i = ix1 p := ⟨i 0, eq_ix1 i⟩
  exact sco_eq m c h p

end Cert.Sage.Bridge

end
-- ==== Proof.PreDecode.lean ====
/-
  The precondition, read back at the destination indices. The precondition is a conjunction of tests, the last of them
  "every destination index, read as a signed 32-bit integer, is at least zero", printed as an all-reduce by `and` of the
  elementwise signed comparison with the constant zero. If the whole conjunction is true, that last conjunct is true,
  so the all-reduce is 1, so the comparison is 1 at every index, which says that the index read signed is nonnegative.
-/
import proofs.«422967_j64759516889783_2_alg».proof.Pre_finite_inputs
import proofs.«422967_j64759516889783_2_alg».proof.Proof.Gen.Pre_finite_inputs
import Idealize.ShloMosaic.Lib.Affine
import Idealize.ShloMosaic.Lib.ReduceAll
import Idealize.ShloMosaic.Lib.ValueIdx

noncomputable section

namespace Cert.Sage.Pre

open Idealize.ShloMosaic Cert.Pre_finite_inputs

/-- Under the precondition no destination index is negative. -/
theorem dst_nonneg (a0 : FVec Ideal S100000x256 .f32) (a1 : FVec Ideal S50000x256 .f32) (a2 a3 a4 a5 : IVec S800000 32)
    (a6 : FVec Ideal S256x256 .f32) (a7 : FVec Ideal S256 .f32) (a8 a9 : FVec Ideal S256x256 .f32) (a10 : FVec Ideal S256 .f32)
    (a11 : FVec Ideal S256x256 .f32) (a12 : FVec Ideal S256x1 .f32) (a13 : FVec Ideal S1 .f32)
    (h : Cert.Pre_finite_inputs.fn (F := Ideal) a0 a1 a2 a3 a4 a5 a6 a7 a8 a9 a10 a11 a12 a13 = fun _ => 1#1)
    (i : S800000.Idx) : 0 ≤ (a3 i).toInt := by
  -- the one element of the rank-0 result is 1
  have h0 := congrFun h ValueIdx.ix0
  dsimp only [fn, fn_part1, fn_part2, fn_part3] at h0
  -- so is its last conjunct, the all-reduce of the comparison
  have h1 := (IntOp.andi_eq_one.1 h0).2
  -- so is the comparison at every index
  haveI : Subsingleton S_.Idx := ⟨fun a b => funext fun d => d.elim0⟩
  have h2 := Host.reduce_andi_all _ _ _ _ _ h1 i
  have h3 : IntOp.cmpi .sge (a3 i) 0#32 = 1#1 := h2
  -- and a signed "at least" that holds compares the signed readings
  simpa using IntOp.cmpi_sge.1 h3

end Cert.Sage.Pre

end
-- ==== Proof.lean ====
/-
  A mean-aggregation graph layer with a linear head: for each transaction row, the feature rows of the accounts that
  point at it are summed and divided by their number (by one for a row nobody points at); the mean goes through one
  weight matrix, the row's own features through another, a bias is added and the result cut below at zero; the score of
  the row is that hidden row times a weight column plus a bias. The kernel program computes the sums and the counts on
  the host, the rest in one grid of twenty row blocks; the reference computes everything on the host.

  The two programs differ in one place: the reference counts by scatter-adding float ones at the destination indices,
  the kernel by an integer histogram of the destination indices cut below at zero, converted to floats. Both drop an
  index at or beyond the number of rows; at a negative index the reference drops the edge while the histogram counts it
  in row zero. The claim is therefore stated, and proved, for destination indices that are not negative. There the two
  counts are one function, the two hidden layers are the same formula of the same arrays entry by entry, and so are the
  scores. No law of the extended reals beyond the formulas' own shape is used, and the finiteness of the float inputs
  is never opened.

  The kernel's frames are the generated ones; the reference's frame is its generated run with the results dropped;
  the idealization rewrote no operation, so it preserves the kernel trivially.
-/
import proofs.«422967_j64759516889783_2_alg».proof.Defs
import proofs.«422967_j64759516889783_2_alg».proof.Proof.Gen.Kernel
import proofs.«422967_j64759516889783_2_alg».proof.Proof.Gen.Kernel.Skeleton
import proofs.«422967_j64759516889783_2_alg».proof.Proof.Gen.Kernel.Launch
import proofs.«422967_j64759516889783_2_alg».proof.Proof.Gen.Kernel.Points
import proofs.«422967_j64759516889783_2_alg».proof.Proof.Gen.Kernel.Frame
import proofs.«422967_j64759516889783_2_alg».proof.Proof.Gen.KernelIdeal
import proofs.«422967_j64759516889783_2_alg».proof.Proof.Gen.KernelIdeal.Skeleton
import proofs.«422967_j64759516889783_2_alg».proof.Proof.Gen.KernelIdeal.Launch
import proofs.«422967_j64759516889783_2_alg».proof.Proof.Gen.KernelIdeal.Points
import proofs.«422967_j64759516889783_2_alg».proof.Proof.Gen.KernelIdeal.Frame
import proofs.«422967_j64759516889783_2_alg».proof.Proof.Gen.ReferenceIdeal
import proofs.«422967_j64759516889783_2_alg».proof.Proof.Gen.Pre_finite_inputs
import proofs.«422967_j64759516889783_2_alg».proof.Proof.Gen.ReferenceIdeal.Run
import proofs.«422967_j64759516889783_2_alg».proof.Proof.Gen.ReferenceIdeal.Read
import proofs.«422967_j64759516889783_2_alg».proof.Proof.Bridge
import proofs.«422967_j64759516889783_2_alg».proof.Proof.PreDecode
import Idealize.ShloMosaic.Adequacy
import Idealize.ShloMosaic.Init

noncomputable section

namespace Cert.Proof

open Idealize.ShloMosaic Idealize.SL.Sem

/-- The word-level kernel program runs and keeps its arguments. -/
theorem frame_k : Cert.frame_Kernel := fun m ρ _ => Cert.Kernel.Gen.frame m ρ

/-- So does the idealized kernel program. -/
theorem frame_ki : Cert.frame_KernelIdeal := fun m ρ _ => Cert.KernelIdeal.Gen.frame m ρ

/-- So does the reference: its run, with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- Both idealized programs end with the same scores and the same hidden layer. -/
theorem algebraic : Cert.algebraic_KernelIdeal_ReferenceIdeal := by
  intro m ρ m' ρ' hpre hagree
  -- no destination index is negative
  have hnn : ∀ (c : Dev Cert.KernelIdeal.nD) i, 0 ≤ (Cert.Sage.Bridge.A3 m c i).toInt := fun c i =>
    Cert.Sage.Pre.dst_nonneg _ _ _ _ _ _ _ _ _ _ _ _ _ _ (hpre c) i
  refine ⟨fun c => Cert.Sage.K.scoVec m c, fun c => Cert.Sage.K.hid m c, Cert.Sage.K.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨e0, e1, e2, e3, -, -, e6, e7, e8, -, -, -, e12, e13⟩ := hagree c
    rw [e0, e1, e2, e3, e6, e7, e8, e12, e13]
    exact (Cert.ReferenceIdeal.Read.val_main_v56_eq _ _ _ _ _ _ _ _ _).trans (Cert.Sage.Bridge.sco_arr_eq m c (hnn c))
  · obtain ⟨e0, e1, e2, e3, -, -, e6, e7, e8, -, -, -, -, -⟩ := hagree c
    rw [e0, e1, e2, e3, e6, e7, e8]
    exact (Cert.ReferenceIdeal.Read.val_main_v50_eq _ _ _ _ _ _ _).trans (Cert.Sage.Bridge.hid_arr_eq m c (hnn c))

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
